-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "cos_eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) (main_arg2 : FVec F S8192x512 .f32) (main_arg3 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S1x512 : Shape := ⟨2, ![1, 512]⟩
abbrev S_ : Shape := ⟨0, ![]⟩
abbrev S1 : Shape := ⟨1, ![1]⟩
abbrev S1x1 : Shape := ⟨2, ![1, 1]⟩
abbrev S8192x1 : Shape := ⟨2, ![8192, 1]⟩
abbrev S1x256 : Shape := ⟨2, ![1, 256]⟩
abbrev S1024x512 : Shape := ⟨2, ![1024, 512]⟩
abbrev S1024x1 : Shape := ⟨2, ![1024, 1]⟩
abbrev S1x128 : Shape := ⟨2, ![1, 128]⟩
abbrev S1024 : Shape := ⟨1, ![1024]⟩

abbrev nBuf : Space → Nat
  | .hbm => 52
  | .vmem => 11
  | .smem => 1
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S8192, .i32⟩
  | .hbm, ⟨4, _⟩ => ⟨S1x512, .f32⟩
  | .hbm, ⟨5, _⟩ => ⟨S1x512, .f32⟩
  | .hbm, ⟨6, _⟩ => ⟨S_, .f32⟩
  | .hbm, ⟨7, _⟩ => ⟨S1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S1x512, .f32⟩
  | .hbm, ⟨14, _⟩ => ⟨S1x512, .f32⟩
  | .hbm, ⟨15, _⟩ => ⟨S8192x1, .i32⟩
  | .hbm, ⟨16, _⟩ => ⟨S8192x1, .f32⟩
  | .hbm, ⟨17, _⟩ => ⟨S1x256, .f32⟩
  | .hbm, ⟨18, _⟩ => ⟨S1x256, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S1, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .smem, ⟨0, _⟩ => ⟨S1, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S8192x512_S1x512_8191_0 : S8192x512.Slices ![8191, 0] S1x512
  reducesTo_S1x512_S1_d1 : S1x512.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x512_0_1 : S1x1.BroadcastsInDim S1x512 (![0, 1] : Fin 2 → Fin S1x512.rank)
  slices_S8192_S1_8191 : S8192.Slices ![8191] S1
  shapeCasts_S8192_S8192x1 : S8192.ShapeCasts S8192x1
  inb_S1x128_S1x128_0_0 : ∀ a, (![0, 0] : Fin 2 → Nat) a + S1x128.size a ≤ S1x128.size a
  h_S1x128 : 0 < S1x128.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  numel1_S1 : S1.numel = 1
  reduces_S1024x1_S1 : S1024x1.Reduces [0] S1
  shapeCasts_S1_S1x1 : S1.ShapeCasts S1x1
  natLt_1_32 : 1 < 32
  shapeCasts_S1x128_S1x128 : S1x128.ShapeCasts S1x128
  shapeCasts_S1x1_S1x1 : S1x1.ShapeCasts S1x1
  broadcasts_S1x1_S1x128 : S1x1.Broadcasts S1x128
  slices_S1x256_S1x1_0_0 : S1x256.Slices ![0, 0] S1x1
  shapeCasts_S1x1_S_ : S1x1.ShapeCasts S_
  slices_S1x256_S1x1_0_128 : S1x256.Slices ![0, 128] S1x1
  shapeCasts_S8192x1_S8192 : S8192x1.ShapeCasts S8192
  bcast_S_S8192 : S_.BroadcastsInDim S8192 (![] : Fin 0 → Fin S8192.rank)
  shapeCasts_S1_S_ : S1.ShapeCasts S_
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x256.size a
  hwx0_5 : ∀ i : grid0.Coords, EltTy.bits .f32 = 32 ∨ (Rect.block (s := S1x256) S1x128.size (cc0_transform_5 i) (hinb0_5 i)).WholeWords (EltTy.packing .f32)

variable [Facts₀]

abbrev spec0_0 : Pipeline.WinSpec sig grid0.rank :=
  Pipeline.WinSpec.ofSpec (Memref.whole main_arg2) S1024x512.size reads0_0 false false 2 stage0_0 sem0_0 nbuf0_0 hstage0_0

abbrev spec0_1 : Pipeline.WinSpec sig grid0.rank :=
  Pipeline.WinSpec.ofSpec (Memref.whole main_v8) S1x512.size reads0_1 false true 1 stage0_1 sem0_1 nbuf0_1 hstage0_1

abbrev spec0_2 : Pipeline.WinSpec sig grid0.rank :=
  Pipeline.WinSpec.ofSpec (Memref.whole main_v10) S1024x1.size reads0_2 false false 2 stage0_2 sem0_2 nbuf0_2 hstage0_2

abbrev spec0_3 : Pipeline.WinSpec sig grid0.rank :=
  Pipeline.WinSpec.ofSpec (Memref.whole main_v11_0) S1024x1.size reads0_3 true false 2 stage0_3 sem0_3 nbuf0_3 hstage0_3

abbrev spec0_4 : Pipeline.WinSpec sig grid0.rank :=
  Pipeline.WinSpec.ofSpec (Memref.whole main_v11_1) S1x128.size reads0_4 true false 2 stage0_4 sem0_4 nbuf0_4 hstage0_4

abbrev spec0_5 : Pipeline.WinSpec sig grid0.rank :=
  Pipeline.WinSpec.ofSpec (Memref.whole main_v11_2) S1x128.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩
abbrev S1 : Shape := ⟨1, ![1]⟩

abbrev nBuf : Space → Nat
  | .hbm => 65
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S8192, .i32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S512x8192, .f32⟩
  | .hbm, ⟨25, _⟩ => ⟨S8192x8192, .f32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .i32⟩
  | .hbm, ⟨47, _⟩ => ⟨S_, .i32⟩
  | .hbm, ⟨48, _⟩ => ⟨S8192, .i32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S1, .f32⟩
  | .hbm, ⟨62, _⟩ => ⟨S_, .f32⟩
  | .hbm, ⟨63, _⟩ => ⟨S_, .f32⟩
  | .hbm, ⟨64, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S8192 : S_.BroadcastsInDim S8192 (![] : Fin 0 → Fin S8192.rank)
  slices_S8192_S1_8191 : S8192.Slices ![8191] S1
  shapeCasts_S1_S_ : S1.ShapeCasts S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KPieces.lean ====
/-
  What one grid point leaves in the three output blocks, as the body's arithmetic of what it read.

  A core's FIRST point (the inner grid coordinate is 0) stores zero into both accumulator blocks and reads them back
  before adding, so it leaves  0 + (the block's partial sum)  in each lane; every later point adds its partial sum to
  what the point before left. The block of per-row exponentials is the same function of the inputs at every point.
  The label compared against is the one word of the prefetched table.
-/
import proofs.«424865_j1357209666311_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl
theorem hz1 : (![0] : Fin 1 → Nat) = fun _ => 0 := funext fun a => by fin_cases a; rfl

/-- The one word of the prefetched table, as the body loads it. -/
def lblOf (c : Dev nD) (xt0 : TbBuf0 (F := F) c tbM0_0) : Elt F .i32 :=
  (xt0 : S1.Idx → Elt F .i32) (Shape.Idx.first (s := S1) (by decide))

/-- The body's load of the table through the whole one-word rectangle is that word. -/
theorem ld_lbl (c : Dev nD) (xt0 : TbBuf0 (F := F) c tbM0_0) (h : 0 < S1.numel) :
    View.ld (Val := Elt F) (S := S1) (e' := .i32) xt0 (Rect.unit ![0] S1.size inb_S1_S1_0) (Shape.Idx.first h) = lblOf c xt0 := by
  rw [View.ld_unit_zero (S := S1) hz1]; rfl

/-- At every point the exponentials' block is the payload of the row block and the normalised row. -/
theorem out_A_3 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S1024x512 .f32) (x1 : Vec F S1x512 .f32) (x2 : Vec F S1024x1 .i32) (xt0 : TbBuf0 (F := F) c tbM0_0) :
    out0_A_3 c i arg3 harg3 arg4 harg4 arg5 harg5 arg6 harg6 arg7 harg7 arg8 harg8 hc0 x0 x1 x2 xt0 = k0_pay5 x0 x1 := by
  unfold out0_A_3
  rw [View.read_writes_eq_canon _ _ _ (cover0_A_3 c i arg3 harg3 arg4 harg4 arg5 harg5 arg6 harg6 arg7 harg7 arg8 harg8 hc0 x0 x1 x2 xt0)]
  unfold kernelRun0_A
  dsimp only
  sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]

theorem out_B_3 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S1024x512 .f32) (x1 : Vec F S1x512 .f32) (x2 : Vec F S1024x1 .i32) (xt0 : TbBuf0 (F := F) c tbM0_0) (xo4 : Vec F S1x128 .f32) (xo5 : Vec F S1x128 .f32) :
    out0_B_3 c i arg3 harg3 arg4 harg4 arg5 harg5 arg6 harg6 arg7 harg7 arg8 harg8 hc0 x0 x1 x2 xt0 xo4 xo5 = k0_pay5 x0 x1 := by
  unfold out0_B_3
  rw [View.read_writes_eq_canon _ _ _ (cover0_B_3 c i arg3 harg3 arg4 harg4 arg5 harg5 arg6 harg6 arg7 harg7 arg8 harg8 hc0 x0 x1 x2 xt0 xo4 xo5)]
  unfold kernelRun0_B
  dsimp only
  sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]

/-- A core's first point leaves, in the positives' accumulator, the block's partial sum added to the zero it stored. -/
theorem out_A_4 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S1024x512 .f32) (x1 : Vec F S1x512 .f32) (x2 : Vec F S1024x1 .i32) (xt0 : TbBuf0 (F := F) c tbM0_0) :
    out0_A_4 c i arg3 harg3 arg4 harg4 arg5 harg5 arg6 harg6 arg7 harg7 arg8 harg8 hc0 x0 x1 x2 xt0 = k0_pay1 (k0_pay7 x0 x1 x2 (lblOf c xt0)) (k0_pay9 k0_pay3) := by
  unfold out0_A_4
  rw [View.read_writes_eq_canon _ _ _ (cover0_A_4 c i arg3 harg3 arg4 harg4 arg5 harg5 arg6 harg6 arg7 harg7 arg8 harg8 hc0 x0 x1 x2 xt0)]
  unfold kernelRun0_A
  dsimp only
  sl_unfold_words
  rw [View.canon_cons_unit_zero (S := S1x128) hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]
  exact congrArg (fun w => k0_pay1 (k0_pay7 x0 x1 x2 w) (k0_pay9 k0_pay3)) (ld_lbl c xt0 _)

/-- A core's first point leaves, in the negatives' counter, the block's count added to the zero it stored. -/
theorem out_A_5 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S1024x512 .f32) (x1 : Vec F S1x512 .f32) (x2 : Vec F S1024x1 .i32) (xt0 : TbBuf0 (F := F) c tbM0_0) :
    out0_A_5 c i arg3 harg3 arg4 harg4 arg5 harg5 arg6 harg6 arg7 harg7 arg8 harg8 hc0 x0 x1 x2 xt0 = k0_pay2 (k0_pay8 x2 (lblOf c xt0)) k0_pay4 := by
  unfold out0_A_5
  rw [View.read_writes_eq_canon _ _ _ (cover0_A_5 c i arg3 harg3 arg4 harg4 arg5 harg5 arg6 harg6 arg7 harg7 arg8 harg8 hc0 x0 x1 x2 xt0)]
  unfold kernelRun0_A
  dsimp only
  sl_unfold_words
  rw [View.canon_cons_unit_zero (S := S1x128) hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]
  exact congrArg (fun w => k0_pay2 (k0_pay8 x2 w) k0_pay4) (ld_lbl c xt0 _)

/-- A later point adds the block's partial sum to what the point before left. -/
theorem out_B_4 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S1024x512 .f32) (x1 : Vec F S1x512 .f32) (x2 : Vec F S1024x1 .i32) (xt0 : TbBuf0 (F := F) c tbM0_0) (xo4 : Vec F S1x128 .f32) (xo5 : Vec F S1x128 .f32) :
    out0_B_4 c i arg3 harg3 arg4 harg4 arg5 harg5 arg6 harg6 arg7 harg7 arg8 harg8 hc0 x0 x1 x2 xt0 xo4 xo5 = k0_pay1 (k0_pay7 x0 x1 x2 (lblOf c xt0)) (k0_pay9 xo4) := by
  unfold out0_B_4
  rw [View.read_writes_eq_canon _ _ _ (cover0_B_4 c i arg3 harg3 arg4 harg4 arg5 harg5 arg6 harg6 arg7 harg7 arg8 harg8 hc0 x0 x1 x2 xt0 xo4 xo5)]
  unfold kernelRun0_B
  dsimp only
  sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]
  exact congrArg (fun w => k0_pay1 (k0_pay7 x0 x1 x2 w) (k0_pay9 xo4)) (ld_lbl c xt0 _)

theorem out_B_5 (c : Dev nD) (i : grid0.Coords) (arg3 : Memref sig .tc .vmem S1024x512 .f32) (harg3 : arg3.IsWhole) (arg4 : Memref sig .tc .vmem S1x512 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S1024x512 .f32) (x1 : Vec F S1x512 .f32) (x2 : Vec F S1024x1 .i32) (xt0 : TbBuf0 (F := F) c tbM0_0) (xo4 : Vec F S1x128 .f32) (xo5 : Vec F S1x128 .f32) :
    out0_B_5 c i arg3 harg3 arg4 harg4 arg5 harg5 arg6 harg6 arg7 harg7 arg8 harg8 hc0 x0 x1 x2 xt0 xo4 xo5 = k0_pay2 (k0_pay8 x2 (lblOf c xt0)) xo5 := by
  unfold out0_B_5
  rw [View.read_writes_eq_canon _ _ _ (cover0_B_5 c i arg3 harg3 arg4 harg4 arg5 harg5 arg6 harg6 arg7 harg7 arg8 harg8 hc0 x0 x1 x2 xt0 xo4 xo5)]
  unfold kernelRun0_B
  dsimp only
  sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1x512) hz, View.ld_unit_zero (S := S1024x1) hz, View.ld_unit_zero (S := S1x128) hz, View.ld_unit_zero (S := S1) hz1, View.read_whole, View.readCov_unit_zero (S := S1x128) _ hz]
  exact congrArg (fun w => k0_pay2 (k0_pay8 x2 w) xo5) (ld_lbl c xt0 _)

end Cert.KernelIdeal.Pieces

end
-- ==== Proof.KNames.lean ====
/-
  Names for what one grid point sees, over the extended reals: the block of 1024 rows of h_r, the normalised last
  row of h_f, the block of 1024 labels, and the one prefetched label. Each is typed at its literal shape.
-/
import proofs.«424865_j1357209666311_2_alg».proof.Proof.KPieces

noncomputable section

open Idealize.ShloMosaic Idealize.ShloMosaic.TcCoe Idealize.SL.Sem

namespace Cert.KernelIdeal.Inv

open Cert.KernelIdeal Cert.KernelIdeal.Gen Cert.KernelIdeal.Pieces

variable (m : (ℓ : Loc nD τ sig) → Buf (Elt Ideal) ℓ)

/-- No index map reads the table: the pipeline's side condition is trivially met. -/
theorem hO : Ok m := trivial

/-- The row block, the normalised row and the label block a point sees, and the table's word. -/
abbrev xblk (c : Dev nD) (t : Fin (cfgM m (hO m)).N) : Vec Ideal S1024x512 .f32 := iblk m (hO m) c 0 t
abbrev fblk (c : Dev nD) (t : Fin (cfgM m (hO m)).N) : Vec Ideal S1x512 .f32 := iblk m (hO m) c 1 t
abbrev lblk (c : Dev nD) (t : Fin (cfgM m (hO m)).N) : Vec Ideal S1024x1 .i32 := iblk m (hO m) c 2 t
abbrev lbl (c : Dev nD) : BitVec 32 := lblOf c (tbl m 0)

end Cert.KernelIdeal.Inv

end
-- ==== Proof.Spec.lean ====
/-
  The loss both programs compute, as one function of the four argument arrays over the extended reals.

  Only the LAST row of the pairwise cosine-similarity matrix survives: with f the last row of h_f, normalised
  (f / max(‖f‖, ε)), and r_j the rows of h_r, the similarity of column j is  s_j = ⟨f̂, r_j / max(‖r_j‖, ε)⟩.
  Column j is a positive when labels_r[j] = labels_f[last], a negative otherwise. With P = ∑_{positives} exp s_j
  and n the number of negatives, the result is  −(∑_{negatives} log (exp s_j / P + δ)) / (n + 1) / B.

  The similarity comes in two spellings. The reference divides each row by its clamped norm and contracts
  (simRef). The kernel contracts the raw row with f̂ and multiplies by the reciprocal square root of the squared
  norm clamped at ε² (simKer). Everything downstream of the similarity is one function of it (lossWith).
-/
import Idealize.ShloMosaic.PureOps.Ideal
import Idealize.ShloMosaic.Lib.ValueIdx

noncomputable section

namespace Cert.Loss

open Idealize.ShloMosaic Idealize.ShloMosaic.ValueIdx

/-- A float argument array, [8192, 512], over the extended reals. -/
abbrev XArr : Type := (⟨2, ![8192, 512]⟩ : Shape).Idx → EReal
/-- A label argument array, [8192], of 32-bit words. -/
abbrev LArr : Type := (⟨1, ![8192]⟩ : Shape).Idx → BitVec 32

/-- The last row, the only one whose loss survives. -/
abbrev last : Fin 8192 := ⟨8191, by decide⟩

/-- ε, the clamp of a row's norm: the f32 word both programs carry. -/
def normEps : EReal := Ideal.ofBits .f32 0x322BCC77#32
/-- ε², the clamp of a row's squared norm in the kernel: the exact square of ε's value. -/
def normEpsSq : EReal := ((126765058482001 / 1267650600228229401496703205376 : ℝ) : EReal)
/-- δ, added under the logarithm. -/
def logEps : EReal := Ideal.ofBits .f32 0x3089705F#32
/-- The 1 added to the count of negatives. -/
def oneF : EReal := Ideal.ofBits .f32 0x3F800000#32
/-- B = 8192, the final divisor. -/
def batchF : EReal := Ideal.ofBits .f32 0x46000000#32

/-- The squared norm of row j. -/
def sqNorm (x : XArr) (j : Fin 8192) : EReal := ∑ d : Fin 512, x (ix2 j d) * x (ix2 j d)

/-- Row j divided by its norm clamped below at ε, at column d. -/
def unitRow (x : XArr) (j : Fin 8192) (d : Fin 512) : EReal :=
  Ideal.div (x (ix2 j d)) (max (Ideal.sqrt (sqNorm x j)) normEps)

/-- The reference's similarity of column j: the contraction of the two normalised rows. -/
def simRef (hf hr : XArr) (j : Fin 8192) : EReal := ∑ d : Fin 512, unitRow hf last d * unitRow hr j d

/-- The kernel's similarity of column j: the raw row contracted with f̂, times rsqrt of the squared norm clamped at ε². -/
def simKer (hf hr : XArr) (j : Fin 8192) : EReal :=
  (∑ d : Fin 512, hr (ix2 j d) * unitRow hf last d) * Ideal.rsqrt (max (sqNorm hr j) normEpsSq)

/-- P: the sum of exp s_j over the positives. -/
def sumPos (s : Fin 8192 → EReal) (lf lr : LArr) : EReal :=
  ∑ j : Fin 8192, if lr (ix1 j) = lf (ix1 last) then Ideal.exp (s j) else 0

/-- n: the number of negatives, as an extended real. -/
def negCount (lf lr : LArr) : EReal :=
  ∑ j : Fin 8192, if lr (ix1 j) = lf (ix1 last) then (0 : EReal) else 1

/-- The loss as a function of the similarity vector and the labels. -/
def lossWith (s : Fin 8192 → EReal) (lf lr : LArr) : EReal :=
  Ideal.div (Ideal.div
    (-(∑ j : Fin 8192, if lr (ix1 j) = lf (ix1 last) then (0 : EReal)
        else Ideal.log (Ideal.div (Ideal.exp (s j)) (sumPos s lf lr) + logEps)))
    (negCount lf lr + oneF)) batchF

end Cert.Loss

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KPay.lean ====
/-
  The kernel body's arithmetic, read at an index over the extended reals.

  One grid point sees a block x of 1024 rows of h_r, the normalised last row f̂ of h_f, the block's 1024 labels
  and the one label of the last row of labels_f. Row r of the block gets  e_r = exp((∑_d x_{r,d} f̂_d) · rsqrt(max(∑_d x_{r,d}², ε²))).
  The block's partial sums are  ∑_r [label_r = label] e_r  and  ∑_r [label_r ≠ label] 1, each added, broadcast
  over the 128 lanes, to the accumulator the point before left (zero at a core's first point).
-/
import proofs.«424865_j1357209666311_2_alg».proof.Proof.Gen.KernelIdeal.Skeleton
import proofs.«424865_j1357209666311_2_alg».proof.Proof.Spec
import proofs.«424865_j1357209666311_2_alg».proof.Proof.LibColumns
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen Cert.Loss Idealize.ShloMosaic Idealize.ShloMosaic.ValueIdx

/-- The kernel's named clamp constant denotes ε², by the certificate's table. -/
theorem named_eq : Named.named (F := Ideal) Cert.KernelIdeal.κ "cos_eps_sq" (φ := .f32) 0x24E69595#32 = normEpsSq :=
  IdealRules.named_const.ideal_named_scalar _ _ _ _ rfl

/-- Row r of a block: exp of the raw contraction with f̂ times rsqrt of the clamped squared norm. -/
def eRow (x : Vec Ideal S1024x512 .f32) (f : Vec Ideal S1x512 .f32) (r : Fin 1024) : EReal :=
  Ideal.exp ((∑ d : Fin 512, x (ix2 r d) * f (ix2 (0 : Fin 1) d))
    * Ideal.rsqrt (max (∑ d : Fin 512, x (ix2 r d) * x (ix2 r d)) normEpsSq))

/-- A sum over the columns of a 1024 × 512 array, kept as a column: at row r it is the sum of that row's 512 entries. -/
private theorem rowSum_apply (src : FVec Ideal S1024x512 .f32) (h : S1024x512.Reduces [1] S1024)
    (hφ : FKind.Formats .f32) (hacc : (0x00000000#32 : BitVec 32) = FKind.add.neutral .f32 hφ)
    (hc : S1024.ShapeCasts S1024x1) (r : Fin 1024) (u : Fin 1) :
    shapeCast S1024x1 (multiReduction (F := Ideal) .add [1] S1024 src 0x00000000#32 h hφ hacc) hc (ix2 r u)
      = ∑ d : Fin 512, src (ix2 r d) := by
  refine (Cert.Lib.Columns.shapeCast_a_a1_apply _ hc r u).trans ?_
  refine (Ideal.multiReduction_add_single src _ h hφ hacc (ix1 r)).trans ?_
  refine Finset.sum_congr rfl fun d _ => congrArg src ?_
  funext c
  apply Fin.ext
  match c with
  | ⟨0, _⟩ => rfl
  | ⟨1, _⟩ => rfl

/-- A sum over the rows of a 1024 × 1 column, kept as a 1 × 1 array: the sum of the column's 1024 entries. -/
private theorem colSum_apply (src : FVec Ideal S1024x1 .f32) (h : S1024x1.Reduces [0] S1)
    (hφ : FKind.Formats .f32) (hacc : (0x00000000#32 : BitVec 32) = FKind.add.neutral .f32 hφ)
    (hc : S1.ShapeCasts S1x1) (u v : Fin 1) :
    shapeCast S1x1 (multiReduction (F := Ideal) .add [0] S1 src 0x00000000#32 h hφ hacc) hc (ix2 u v)
      = ∑ r : Fin 1024, src (ix2 r (0 : Fin 1)) := by
  refine (Cert.Lib.Columns.shapeCast_a_a1_apply _ hc u v).trans ?_
  refine (Ideal.multiReduction_add_single src _ h hφ hacc (ix1 u)).trans ?_
  refine Finset.sum_congr rfl fun r _ => congrArg src ?_
  funext c
  apply Fin.ext
  match c with
  | ⟨0, _⟩ => rfl
  | ⟨1, _⟩ =>
    show u.val = 0
    omega

theorem pay5_apply (x : Vec Ideal S1024x512 .f32) (f : Vec Ideal S1x512 .f32) (r : Fin 1024) :
    k0_pay5 (F := Ideal) x f (ix2 r (0 : Fin 1)) = eRow x f r := by
  unfold k0_pay5 eRow
  show Ideal.exp (_ * Ideal.rsqrt (max _ _)) = _
  refine congrArg Ideal.exp ?_
  refine congr (congrArg HMul.hMul ?_) (congrArg Ideal.rsqrt (congr (congrArg max ?_) ?_))
  · refine (rowSum_apply _ _ _ _ _ r 0).trans ?_
    refine Finset.sum_congr rfl fun d _ => ?_
    show x (ix2 r d) * broadcastTo S1024x512 _ _ (ix2 r d) = _
    rw [broadcastTo_1b_ab_apply, shapeCast_self, shapeCast_self]
  · exact rowSum_apply _ _ _ _ _ r 0
  · exact named_eq

/-- The label mask at row r: the one bit, set exactly when the row's label is the given one. -/
private theorem pay6_apply (l : Vec Ideal S1024x1 .i32) (w : BitVec 32) (r : Fin 1024) :
    k0_pay6 (F := Ideal) l w (ix2 r (0 : Fin 1)) = if l (ix2 r (0 : Fin 1)) = w then 1#1 else 0#1 := by
  unfold k0_pay6
  show IntOp.cmpi .eq (shapeCast S1024x1 l _ (ix2 r 0)) w = _
  rw [shapeCast_self]
  unfold IntOp.cmpi
  by_cases h : l (ix2 r (0 : Fin 1)) = w
  · rw [if_pos h, h, beq_self_eq_true]; rfl
  · rw [if_neg h, beq_eq_false_iff_ne.mpr h]; rfl

theorem pay7_apply (x : Vec Ideal S1024x512 .f32) (f : Vec Ideal S1x512 .f32) (l : Vec Ideal S1024x1 .i32) (w : BitVec 32) :
    k0_pay7 (F := Ideal) x f l w (ix2 (0 : Fin 1) (0 : Fin 1)) = ∑ r : Fin 1024, if l (ix2 r (0 : Fin 1)) = w then eRow x f r else 0 := by
  unfold k0_pay7
  refine (colSum_apply _ _ _ _ _ 0 0).trans ?_
  refine Finset.sum_congr rfl fun r _ => ?_
  show Scalar.select (k0_pay6 (F := Ideal) l w (ix2 r 0)) (k0_pay5 (F := Ideal) x f (ix2 r 0)) (Ideal.ofBits .f32 0x00000000#32) = _
  rw [pay6_apply, pay5_apply, Ideal.ofBits_zero_f32]
  by_cases h : l (ix2 r (0 : Fin 1)) = w
  · rw [if_pos h, if_pos h]; exact select_one _ _
  · rw [if_neg h, if_neg h]; exact select_zero _ _

theorem pay8_apply (l : Vec Ideal S1024x1 .i32) (w : BitVec 32) :
    k0_pay8 (F := Ideal) l w (ix2 (0 : Fin 1) (0 : Fin 1)) = ∑ r : Fin 1024, if l (ix2 r (0 : Fin 1)) = w then (0 : EReal) else 1 := by
  unfold k0_pay8
  refine (colSum_apply _ _ _ _ _ 0 0).trans ?_
  refine Finset.sum_congr rfl fun r _ => ?_
  show (((((k0_pay6 (F := Ideal) l w (ix2 r 0)) ^^^ 1#1).setWidth 32).toInt : ℝ) : EReal) = _
  rw [pay6_apply]
  by_cases h : l (ix2 r (0 : Fin 1)) = w
  · rw [if_pos h, if_pos h]
    have e : ((1#1 ^^^ 1#1).setWidth 32).toInt = 0 := by decide
    rw [e, Int.cast_zero, EReal.coe_zero]
  · rw [if_neg h, if_neg h]
    have e : ((0#1 ^^^ 1#1).setWidth 32).toInt = 1 := by decide
    rw [e, Int.cast_one, EReal.coe_one]

theorem pay1_apply (p : FVec Ideal S1x1 .f32) (acc : FVec Ideal S1x128 .f32) (q : Fin 128) :
    k0_pay1 (F := Ideal) p acc (ix2 (0 : Fin 1) q) = acc (ix2 (0 : Fin 1) q) + p (ix2 (0 : Fin 1) (0 : Fin 1)) := by
  unfold k0_pay1
  show acc (ix2 0 q) + broadcastTo S1x128 _ _ (ix2 0 q) = _
  rw [Cert.Lib.Columns.broadcastTo_a1_ab_apply, shapeCast_self]

theorem pay2_apply (p : FVec Ideal S1x1 .f32) (acc : Vec Ideal S1x128 .f32) (q : Fin 128) :
    k0_pay2 (F := Ideal) p acc (ix2 (0 : Fin 1) q) = acc (ix2 (0 : Fin 1) q) + p (ix2 (0 : Fin 1) (0 : Fin 1)) := by
  unfold k0_pay2
  show shapeCast S1x128 acc _ (ix2 0 q) + broadcastTo S1x128 _ _ (ix2 0 q) = _
  rw [Cert.Lib.Columns.broadcastTo_a1_ab_apply, shapeCast_self, shapeCast_self]

theorem pay3_apply (q : S1x128.Idx) : k0_pay3 (F := Ideal) q = 0 :=
  Ideal.ofBits_zero_f32

theorem pay4_apply (q : S1x128.Idx) : k0_pay4 (F := Ideal) q = 0 :=
  Ideal.ofBits_zero_f32

theorem pay9_eq (v : Vec Ideal S1x128 .f32) : k0_pay9 (F := Ideal) v = v :=
  shapeCast_self v _

end Cert.KernelIdeal.Pay

end
-- ==== Proof.KInv.lean ====
/-
  What the three output blocks hold after each grid point, over the extended reals.

  The eight points run in order; points 0–3 are the first core's share, 4–7 the second's. The block of exponentials
  after point t is that point's rows. Each accumulator holds, in every one of its 128 lanes, the running sum of the
  partial sums of its core's points so far, started from zero at the core's first point:
  after point t it is  ((0 + p_{4⌊t/4⌋}) + …) + p_t.  By induction on the point, never by listing the grid.
-/
import proofs.«424865_j1357209666311_2_alg».proof.Proof.KNames
import proofs.«424865_j1357209666311_2_alg».proof.Proof.KPay

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Pay

variable (m : (ℓ : Loc nD τ sig) → Buf (Elt Ideal) ℓ)

/-- A point's partial sum of the positives' exponentials, and its count of negatives. -/
def partP (c : Dev nD) (t : Fin (cfgM m (hO m)).N) : EReal :=
  ∑ r : Fin 1024, if lblk m c t (ix2 r (0 : Fin 1)) = lbl m c then eRow (xblk m c t) (fblk m c t) r else 0
def partN (c : Dev nD) (t : Fin (cfgM m (hO m)).N) : EReal :=
  ∑ r : Fin 1024, if lblk m c t (ix2 r (0 : Fin 1)) = lbl m c then (0 : EReal) else 1

/-- The running sums: restarted from zero at a core's first point, else continued. -/
def accP (c : Dev nD) : (n : ℕ) → n < (cfgM m (hO m)).N → EReal
  | 0, h => 0 + partP m c ⟨0, h⟩
  | n + 1, h => if (n + 1) % 4 = 0 then 0 + partP m c ⟨n + 1, h⟩ else accP c n (Nat.lt_of_succ_lt h) + partP m c ⟨n + 1, h⟩
def accN (c : Dev nD) : (n : ℕ) → n < (cfgM m (hO m)).N → EReal
  | 0, h => 0 + partN m c ⟨0, h⟩
  | n + 1, h => if (n + 1) % 4 = 0 then 0 + partN m c ⟨n + 1, h⟩ else accN c n (Nat.lt_of_succ_lt h) + partN m c ⟨n + 1, h⟩

/-- Reading a [1,128] block at a lane. -/
theorem lane (q : S1x128.Idx) : ∃ b : Fin 128, q = ix2 (0 : Fin 1) b :=
  ⟨q 1, funext fun a => match a with
    | ⟨0, _⟩ => Fin.ext (by have h : (q 0).val < 1 := (q 0).isLt; show (q 0).val = 0; omega)
    | ⟨1, _⟩ => rfl⟩

/-- A first point's accumulator of positives: zero plus its partial sum, in every lane. -/
theorem first_P (x : Vec Ideal S1024x512 .f32) (f : Vec Ideal S1x512 .f32) (l : Vec Ideal S1024x1 .i32) (w : BitVec 32) :
    k0_pay1 (F := Ideal) (k0_pay7 x f l w) (k0_pay9 (k0_pay3 (F := Ideal)))
      = fun _ => 0 + ∑ r : Fin 1024, if l (ix2 r (0 : Fin 1)) = w then eRow x f r else 0 := by
  funext q; obtain ⟨b, rfl⟩ := lane q
  rw [pay1_apply, pay9_eq, pay3_apply, pay7_apply]
theorem first_N (l : Vec Ideal S1024x1 .i32) (w : BitVec 32) :
    k0_pay2 (F := Ideal) (k0_pay8 l w) (k0_pay4 (F := Ideal)) = fun _ => 0 + ∑ r : Fin 1024, if l (ix2 r (0 : Fin 1)) = w then (0 : EReal) else 1 := by
  funext q; obtain ⟨b, rfl⟩ := lane q
  rw [pay2_apply, pay4_apply, pay8_apply]
/-- A later point's: what the point before left, plus its partial sum. -/
theorem next_P (x : Vec Ideal S1024x512 .f32) (f : Vec Ideal S1x512 .f32) (l : Vec Ideal S1024x1 .i32) (w : BitVec 32) (a : EReal) :
    k0_pay1 (F := Ideal) (k0_pay7 x f l w) (k0_pay9 (fun _ => a))
      = fun _ => a + ∑ r : Fin 1024, if l (ix2 r (0 : Fin 1)) = w then eRow x f r else 0 := by
  funext q; obtain ⟨b, rfl⟩ := lane q
  rw [pay1_apply, pay9_eq, pay7_apply]
theorem next_N (l : Vec Ideal S1024x1 .i32) (w : BitVec 32) (a : EReal) :
    k0_pay2 (F := Ideal) (k0_pay8 l w) (fun _ => a) = fun _ => a + ∑ r : Fin 1024, if l (ix2 r (0 : Fin 1)) = w then (0 : EReal) else 1 := by
  funext q; obtain ⟨b, rfl⟩ := lane q
  rw [pay2_apply, pay8_apply]

/-- The block of exponentials after point t is that point's rows'. -/
theorem outs3 (c : Dev nD) (t : Fin (cfgM m (hO m)).N) :
    (outsAt0 m (hO m) c t.val t.isLt).1 = k0_pay5 (xblk m c t) (fblk m c t) := by
  by_cases h0 : t.val % 4 = 0
  · rw [outsAt0_A m (hO m) c t h0]; dsimp only
    exact out_A_3 (F := Ideal) c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) _ (xblk m c t) (fblk m c t) (lblk m c t) (tbl m 0)
  · rw [outsAt0_B m (hO m) c t h0]; dsimp only
    exact out_B_3 (F := Ideal) c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) _ (xblk m c t) (fblk m c t) (lblk m c t) (tbl m 0) _ _

/-- Both accumulators after point n are the running sums, in every lane. -/
theorem outs45 (c : Dev nD) : ∀ (n : ℕ) (h : n < (cfgM m (hO m)).N),
    (outsAt0 m (hO m) c n h).2.1 = (fun _ => accP m c n h) ∧ (outsAt0 m (hO m) c n h).2.2 = (fun _ => accN m c n h)
  | 0, h => by
    rw [outsAt0_A m (hO m) c ⟨0, h⟩ rfl]; dsimp only
    exact ⟨(out_A_4 (F := Ideal) c (grid0.coords ⟨0, h⟩) (ms0_0 m (hO m) ⟨0, h⟩) (hs0_0 m (hO m) ⟨0, h⟩) (ms0_1 m (hO m) ⟨0, h⟩) (hs0_1 m (hO m) ⟨0, h⟩) (ms0_2 m (hO m) ⟨0, h⟩) (hs0_2 m (hO m) ⟨0, h⟩) (ms0_3 m (hO m) ⟨0, h⟩) (hs0_3 m (hO m) ⟨0, h⟩) (ms0_4 m (hO m) ⟨0, h⟩) (hs0_4 m (hO m) ⟨0, h⟩) (ms0_5 m (hO m) ⟨0, h⟩) (hs0_5 m (hO m) ⟨0, h⟩) _ (xblk m c ⟨0, h⟩) (fblk m c ⟨0, h⟩) (lblk m c ⟨0, h⟩) (tbl m 0)).trans (first_P _ _ _ _), (out_A_5 (F := Ideal) c (grid0.coords ⟨0, h⟩) (ms0_0 m (hO m) ⟨0, h⟩) (hs0_0 m (hO m) ⟨0, h⟩) (ms0_1 m (hO m) ⟨0, h⟩) (hs0_1 m (hO m) ⟨0, h⟩) (ms0_2 m (hO m) ⟨0, h⟩) (hs0_2 m (hO m) ⟨0, h⟩) (ms0_3 m (hO m) ⟨0, h⟩) (hs0_3 m (hO m) ⟨0, h⟩) (ms0_4 m (hO m) ⟨0, h⟩) (hs0_4 m (hO m) ⟨0, h⟩) (ms0_5 m (hO m) ⟨0, h⟩) (hs0_5 m (hO m) ⟨0, h⟩) _ (xblk m c ⟨0, h⟩) (fblk m c ⟨0, h⟩) (lblk m c ⟨0, h⟩) (tbl m 0)).trans (first_N _ _)⟩
  | n + 1, h => by
    by_cases h0 : (n + 1) % 4 = 0
    · rw [outsAt0_A m (hO m) c ⟨n + 1, h⟩ h0]; dsimp only
      refine ⟨((out_A_4 (F := Ideal) c (grid0.coords ⟨n + 1, h⟩) (ms0_0 m (hO m) ⟨n + 1, h⟩) (hs0_0 m (hO m) ⟨n + 1, h⟩) (ms0_1 m (hO m) ⟨n + 1, h⟩) (hs0_1 m (hO m) ⟨n + 1, h⟩) (ms0_2 m (hO m) ⟨n + 1, h⟩) (hs0_2 m (hO m) ⟨n + 1, h⟩) (ms0_3 m (hO m) ⟨n + 1, h⟩) (hs0_3 m (hO m) ⟨n + 1, h⟩) (ms0_4 m (hO m) ⟨n + 1, h⟩) (hs0_4 m (hO m) ⟨n + 1, h⟩) (ms0_5 m (hO m) ⟨n + 1, h⟩) (hs0_5 m (hO m) ⟨n + 1, h⟩) _ (xblk m c ⟨n + 1, h⟩) (fblk m c ⟨n + 1, h⟩) (lblk m c ⟨n + 1, h⟩) (tbl m 0)).trans (first_P _ _ _ _)).trans ?_, ((out_A_5 (F := Ideal) c (grid0.coords ⟨n + 1, h⟩) (ms0_0 m (hO m) ⟨n + 1, h⟩) (hs0_0 m (hO m) ⟨n + 1, h⟩) (ms0_1 m (hO m) ⟨n + 1, h⟩) (hs0_1 m (hO m) ⟨n + 1, h⟩) (ms0_2 m (hO m) ⟨n + 1, h⟩) (hs0_2 m (hO m) ⟨n + 1, h⟩) (ms0_3 m (hO m) ⟨n + 1, h⟩) (hs0_3 m (hO m) ⟨n + 1, h⟩) (ms0_4 m (hO m) ⟨n + 1, h⟩) (hs0_4 m (hO m) ⟨n + 1, h⟩) (ms0_5 m (hO m) ⟨n + 1, h⟩) (hs0_5 m (hO m) ⟨n + 1, h⟩) _ (xblk m c ⟨n + 1, h⟩) (fblk m c ⟨n + 1, h⟩) (lblk m c ⟨n + 1, h⟩) (tbl m 0)).trans (first_N _ _)).trans ?_⟩
      · funext _; show _ = (if (n + 1) % 4 = 0 then _ else _); rw [if_pos h0]; rfl
      · funext _; show _ = (if (n + 1) % 4 = 0 then _ else _); rw [if_pos h0]; rfl
    · have ih := outs45 c n (Nat.lt_of_succ_lt h)
      rw [outsAt0_B m (hO m) c ⟨n + 1, h⟩ h0]; dsimp only
      refine ⟨(out_B_4 (F := Ideal) c (grid0.coords ⟨n + 1, h⟩) (ms0_0 m (hO m) ⟨n + 1, h⟩) (hs0_0 m (hO m) ⟨n + 1, h⟩) (ms0_1 m (hO m) ⟨n + 1, h⟩) (hs0_1 m (hO m) ⟨n + 1, h⟩) (ms0_2 m (hO m) ⟨n + 1, h⟩) (hs0_2 m (hO m) ⟨n + 1, h⟩) (ms0_3 m (hO m) ⟨n + 1, h⟩) (hs0_3 m (hO m) ⟨n + 1, h⟩) (ms0_4 m (hO m) ⟨n + 1, h⟩) (hs0_4 m (hO m) ⟨n + 1, h⟩) (ms0_5 m (hO m) ⟨n + 1, h⟩) (hs0_5 m (hO m) ⟨n + 1, h⟩) _ (xblk m c ⟨n + 1, h⟩) (fblk m c ⟨n + 1, h⟩) (lblk m c ⟨n + 1, h⟩) (tbl m 0) _ _).trans ?_, (out_B_5 (F := Ideal) c (grid0.coords ⟨n + 1, h⟩) (ms0_0 m (hO m) ⟨n + 1, h⟩) (hs0_0 m (hO m) ⟨n + 1, h⟩) (ms0_1 m (hO m) ⟨n + 1, h⟩) (hs0_1 m (hO m) ⟨n + 1, h⟩) (ms0_2 m (hO m) ⟨n + 1, h⟩) (hs0_2 m (hO m) ⟨n + 1, h⟩) (ms0_3 m (hO m) ⟨n + 1, h⟩) (hs0_3 m (hO m) ⟨n + 1, h⟩) (ms0_4 m (hO m) ⟨n + 1, h⟩) (hs0_4 m (hO m) ⟨n + 1, h⟩) (ms0_5 m (hO m) ⟨n + 1, h⟩) (hs0_5 m (hO m) ⟨n + 1, h⟩) _ (xblk m c ⟨n + 1, h⟩) (fblk m c ⟨n + 1, h⟩) (lblk m c ⟨n + 1, h⟩) (tbl m 0) _ _).trans ?_⟩
      · refine (congrArg (fun a => k0_pay1 (F := Ideal) (k0_pay7 (F := Ideal) (xblk m c ⟨n + 1, h⟩) (fblk m c ⟨n + 1, h⟩) (lblk m c ⟨n + 1, h⟩) (lbl m c)) (k0_pay9 a)) ih.1).trans ?_
        refine (next_P _ _ _ _ _).trans ?_
        funext _; show _ = (if (n + 1) % 4 = 0 then _ else _); rw [if_neg h0]; rfl
      · refine (congrArg (fun a => k0_pay2 (F := Ideal) (k0_pay8 (F := Ideal) (lblk m c ⟨n + 1, h⟩) (lbl m c)) a) ih.2).trans ?_
        refine (next_N _ _ _).trans ?_
        funext _; show _ = (if (n + 1) % 4 = 0 then _ else _); rw [if_neg h0]; rfl

end Cert.KernelIdeal.Inv

end
-- ==== Proof.KBlocks.lean ====
/-
  What one grid point sees, as entries of the argument arrays.

  Point t (0 ≤ t < 8) is handed rows 1024·t … 1024·t + 1023 of h_r and of labels_r (the block index is the point's
  own number: core · 4 + step), always the same normalised last row f̂ of h_f, which the host lines before the call
  compute as  h_f[8191, d] / max(√(∑_k h_f[8191, k]²), ε), and the one label labels_f[8191].
-/
import proofs.«424865_j1357209666311_2_alg».proof.Proof.KNames
import proofs.«424865_j1357209666311_2_alg».proof.Proof.Spec
import proofs.«424865_j1357209666311_2_alg».proof.Proof.LibColumns
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.KernelIdeal.Inv Cert.Loss

variable (m : (ℓ : Loc nD τ sig) → Buf (Elt Ideal) ℓ)

/-- The four argument arrays on core c. -/
abbrev hfA (c : Dev nD) : XArr := m ((c.tc : Thread nD τ).loc main_arg0)
abbrev lfA (c : Dev nD) : LArr := m ((c.tc : Thread nD τ).loc main_arg1)
abbrev hrA (c : Dev nD) : XArr := m ((c.tc : Thread nD τ).loc main_arg2)
abbrev lrA (c : Dev nD) : LArr := m ((c.tc : Thread nD τ).loc main_arg3)

/-- Row r of point t's block is row 1024·t + r of the array. -/
def rowOf (t : Fin (cfgM m (hO m)).N) (r : Fin 1024) : Fin 8192 :=
  ⟨1024 * t.val + r.val, by have h : (cfgM m (hO m)).N = 8 := N_0; have := t.isLt; have := r.isLt; omega⟩

/-- The block index of the row windows is the point's own number on the rows and 0 on the columns; decided over the grid. -/
private theorem rowIdx : ∀ t : Fin grid0.N,
    cc0_transform_0 (grid0.coords t) (0 : Fin 2) = t.val ∧ cc0_transform_0 (grid0.coords t) (1 : Fin 2) = 0
    ∧ cc0_transform_2 (grid0.coords t) (0 : Fin 2) = t.val ∧ cc0_transform_2 (grid0.coords t) (1 : Fin 2) = 0
    ∧ cc0_transform_1 (grid0.coords t) (0 : Fin 2) = 0 ∧ cc0_transform_1 (grid0.coords t) (1 : Fin 2) = 0 :=
  (by decide +kernel : ∀ t : Fin grid0.N, _)

theorem xblk_apply (c : Dev nD) (t : Fin (cfgM m (hO m)).N) (r : Fin 1024) (d : Fin 512) :
    xblk m c t (ix2 r d) = hrA m c (ix2 (rowOf m t r) d) := by
  obtain ⟨e0, e1, -, -, -, -⟩ := rowIdx t
  show V m c main_arg2 ((((cfgM m (hO m)).win 0).blk t).view.emb (ix2 r d)) = m ((c.tc : Thread nD τ).loc main_arg2) (ix2 (rowOf m t r) d)
  rw [V_main_arg2]
  refine congrArg _ ?_
  funext a
  apply Fin.ext
  match a with
  | ⟨0, _⟩ =>
    show cc0_transform_0 (grid0.coords t) (0 : Fin 2) * 1024 + 1 * r.val = 1024 * t.val + r.val
    rw [e0]; omega
  | ⟨1, _⟩ =>
    show cc0_transform_0 (grid0.coords t) (1 : Fin 2) * 512 + 1 * d.val = d.val
    rw [e1]; omega

/-- The label array as one column: what the host's reshape leaves for the label window. -/
private theorem V_v10 (c : Dev nD) :
    (V m c main_v10 : S8192x1.Idx → BitVec 32) = shapeCast S8192x1 (lrA m c) shapeCasts_S8192_S8192x1 := by
  dsimp only [V, V0]
  simp only [hostOps0, List.flatten_cons, List.flatten_nil, List.append_nil, List.cons_append, List.nil_append]
  after_results
  rfl

/-- The one prefetched word: the slice of the first label array at its last entry. -/
private theorem V_v9 (c : Dev nD) :
    (V m c main_v9 : S1.Idx → BitVec 32) = extractStridedSlice S1 ![8191] (lfA m c) slices_S8192_S1_8191 := by
  dsimp only [V, V0]
  simp only [hostOps0, List.flatten_cons, List.flatten_nil, List.append_nil, List.cons_append, List.nil_append]
  after_results

/-- The last row of an array, as a 1 × 512 array. -/
private abbrev lastRow (x : XArr) : S1x512.Idx → EReal :=
  extractStridedSlice S1x512 ![8191, 0] x slices_S8192x512_S1x512_8191_0

/-- The normalised last row as the host lines before the call compute it. -/
private def fhat (x : XArr) : S1x512.Idx → EReal :=
  Host.divf (F := Ideal) (φ := .f32) (lastRow x)
    (broadcastInDim S1x512 ![0, 1] bcast_S1x1_S1x512_0_1
      (maximumf (F := Ideal) (φ := .f32)
        (Host.sqrt (F := Ideal) (φ := .f32) (broadcastInDim S1x1 ![0] bcast_S1_S1x1_0
          (Host.reduceAdd (F := Ideal) (φ := .f32) (mulf (F := Ideal) (φ := .f32) (lastRow x) (lastRow x)) (constant (F := Ideal) S_ .f32 0x00000000#32) reducesTo_S1x512_S1_d1 h_S_)))
        (broadcastInDim S1x1 ![] bcast_S_S1x1 (constant (F := Ideal) S_ .f32 0x322BCC77#32))))

private theorem V_v8 (c : Dev nD) : (V m c main_v8 : S1x512.Idx → EReal) = fhat (hfA m c) := by
  dsimp only [V, V0]
  simp only [hostOps0, List.flatten_cons, List.flatten_nil, List.append_nil, List.cons_append, List.nil_append]
  after_results
  rfl

/-- The last row read at column d. -/
private theorem lastRow_apply (x : XArr) (d : Fin 512) : lastRow x (ix2 (0 : Fin 1) d) = x (ix2 last d) :=
  extractStridedSlice_apply ![8191, 0] x slices_S8192x512_S1x512_8191_0 (ix2 (0 : Fin 1) d) (ix2 last d) (fun a => match a with
    | ⟨0, _⟩ => by show 8191 = 8191 + 0; rfl
    | ⟨1, _⟩ => by show d.val = 0 + d.val; omega)

/-- Entry d of the host's normalised last row: the entry divided by the clamped norm of the row. -/
private theorem fhat_apply (x : XArr) (d : Fin 512) : fhat x (ix2 (0 : Fin 1) d) = unitRow x last d := by
  unfold fhat unitRow
  show Ideal.div (lastRow x (ix2 (0 : Fin 1) d)) (broadcastInDim S1x512 _ _ _ (ix2 (0 : Fin 1) d)) = _
  rw [lastRow_apply]
  refine congrArg (Ideal.div _) ?_
  refine (broadcastInDim_apply _ bcast_S1x1_S1x512_0_1 _ (ix2 (0 : Fin 1) d) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  show max (Ideal.sqrt (broadcastInDim S1x1 _ _ _ (ix2 (0 : Fin 1) (0 : Fin 1)))) (broadcastInDim S1x1 _ _ _ (ix2 (0 : Fin 1) (0 : Fin 1)))
    = max (Ideal.sqrt (sqNorm x last)) normEps
  refine congr (congrArg max (congrArg Ideal.sqrt ?_)) ?_
  · refine (broadcastInDim_apply _ bcast_S1_S1x1_0 _ (ix2 (0 : Fin 1) (0 : Fin 1)) (ix1 (0 : Fin 1)) (fun a => match a with
      | ⟨0, _⟩ => by show 0 = if (1 : Nat) = 1 then 0 else _; rw [if_pos rfl])).trans ?_
    unfold sqNorm
    simp only [Host.reduceAdd, Ideal.hostReduceAdd_def]
    rw [Ideal.hostReduceAdd_single reducesTo_S1x512_S1_d1 (by decide)]
    show Ideal.ofBits .f32 0x00000000#32 + _ = _
    rw [Ideal.ofBits_zero_f32, zero_add]
    refine Finset.sum_congr rfl fun k _ => ?_
    show lastRow x _ * lastRow x _ = _
    have hk : (Shape.Reduces.lift (s := S1x512) (t := S1) (a := 1) (by decide) (ix1 (0 : Fin 1)) k) = ix2 (0 : Fin 1) k := by
      funext a; apply Fin.ext
      match a with
      | ⟨0, _⟩ => rfl
      | ⟨1, _⟩ => rfl
    rw [hk]
    exact congr (congrArg HMul.hMul (lastRow_apply x k)) (lastRow_apply x k)
  · refine (broadcastInDim_apply _ bcast_S_S1x1 _ (ix2 (0 : Fin 1) (0 : Fin 1)) (fun a => a.elim0) (fun a => a.elim0)).trans ?_
    rfl

theorem fblk_apply (c : Dev nD) (t : Fin (cfgM m (hO m)).N) (d : Fin 512) :
    fblk m c t (ix2 (0 : Fin 1) d) = unitRow (hfA m c) last d := by
  obtain ⟨-, -, -, -, e4, e5⟩ := rowIdx t
  show V m c main_v8 ((((cfgM m (hO m)).win 1).blk t).view.emb (ix2 (0 : Fin 1) d)) = _
  have hidx : (((cfgM m (hO m)).win 1).blk t).view.emb (ix2 (0 : Fin 1) d) = ix2 (0 : Fin 1) d := by
    funext a
    apply Fin.ext
    match a with
    | ⟨0, _⟩ =>
      show cc0_transform_1 (grid0.coords t) (0 : Fin 2) * 1 + 1 * 0 = 0
      rw [e4]
    | ⟨1, _⟩ =>
      show cc0_transform_1 (grid0.coords t) (1 : Fin 2) * 512 + 1 * d.val = d.val
      rw [e5]; omega
  rw [hidx]
  exact (congrFun (V_v8 m c) _).trans (fhat_apply (hfA m c) d)

theorem lblk_apply (c : Dev nD) (t : Fin (cfgM m (hO m)).N) (r : Fin 1024) :
    lblk m c t (ix2 r (0 : Fin 1)) = lrA m c (ix1 (rowOf m t r)) := by
  obtain ⟨-, -, e2, e3, -, -⟩ := rowIdx t
  show V m c main_v10 ((((cfgM m (hO m)).win 2).blk t).view.emb (ix2 r (0 : Fin 1))) = _
  have hidx : (((cfgM m (hO m)).win 2).blk t).view.emb (ix2 r (0 : Fin 1)) = ix2 (rowOf m t r) (0 : Fin 1) := by
    funext a
    apply Fin.ext
    match a with
    | ⟨0, _⟩ =>
      show cc0_transform_2 (grid0.coords t) (0 : Fin 2) * 1024 + 1 * r.val = 1024 * t.val + r.val
      rw [e2]; omega
    | ⟨1, _⟩ =>
      show cc0_transform_2 (grid0.coords t) (1 : Fin 2) * 1 + 1 * 0 = 0
      rw [e3]
  rw [hidx]
  exact (congrFun (V_v10 m c) _).trans (Cert.Lib.Columns.shapeCast_a_a1_apply _ _ _ _)

theorem lbl_eq (c : Dev nD) : lbl m c = lfA m c (ix1 last) := by
  obtain rfl : c = 0 := Subsingleton.elim _ _
  show V m (0 : Dev nD) main_v9 (Shape.Idx.first (s := S1) (by decide)) = _
  refine (congrFun (V_v9 m 0) _).trans ?_
  exact extractStridedSlice_apply ![8191] _ slices_S8192_S1_8191 _ (ix1 last) (fun a => match a with
    | ⟨0, _⟩ => by show 8191 = 8191 + 0; rfl)

end Cert.KernelIdeal.Blocks

end
-- ==== Proof.Algebra.lean ====
/-
  The two laws that join the kernel's arithmetic to the reference's, over the extended reals.

  (1) For rows of REAL numbers the two spellings of the cosine similarity agree: with M = max(√n, ε) = √(max(n, ε²))
      (the square root is monotone and √(ε²) = ε for ε > 0), the kernel's  (∑ r_d · f̂_d) · (√max(n, ε²))⁻¹  is the
      reference's  ∑ f̂_d · (r_d / M), a real factor moved out of a finite sum of reals. Finiteness is what makes this
      distributivity legitimate; at an infinite entry it fails.
  (2) A sum over the 8192 columns is the sum of its eight blocks of 1024 consecutive columns (addition on the
      extended reals is commutative and associative, so no finiteness is needed).
-/
import proofs.«424865_j1357209666311_2_alg».proof.Proof.Spec

noncomputable section

namespace Cert.Loss

open Idealize.ShloMosaic Idealize.ShloMosaic.ValueIdx

/-- Every entry of the array is a real number. -/
def Finite (x : XArr) : Prop := ∀ i, ∃ r : ℝ, x i = (r : EReal)

/-- ε's word denotes the real 11258999 / 2^50. -/
theorem normEps_eq : normEps = ((11258999 / 1125899906842624 : ℝ) : EReal) := by
  -- sign 0, biased exponent 100, fraction 2870391: (2^23 + 2870391) · 2^(100 - 127 - 23) = 11258999 / 2^50
  unfold normEps
  simp [Ideal.ofBits, Ideal.ieee, -EReal.coe_mul]; norm_num

/-- ε² is the square of ε's value. -/
theorem normEpsSq_eq : normEpsSq = (((11258999 / 1125899906842624 : ℝ) * (11258999 / 1125899906842624 : ℝ) : ℝ) : EReal) := by
  unfold normEpsSq
  congr 1
  norm_num

/-- A finite sum of coerced reals is the coercion of the real sum. -/
private theorem coe_sum {ι : Type} (s : Finset ι) (g : ι → ℝ) :
    (∑ d ∈ s, (g d : EReal)) = ((∑ d ∈ s, g d : ℝ) : EReal) := by
  classical
  induction s using Finset.induction_on with
  | empty => simp
  | insert a s ha ih => rw [Finset.sum_insert ha, Finset.sum_insert ha, ih, EReal.coe_add]

/-- The squared norm of a real row is a coerced real. -/
private theorem sqn_coe (a : Fin 512 → ℝ) :
    (∑ d : Fin 512, (a d : EReal) * (a d : EReal)) = ((∑ d : Fin 512, a d * a d : ℝ) : EReal) := by
  simp_rw [← EReal.coe_mul]
  exact coe_sum _ _

/-- The coercion of the reals is monotone, so it commutes with max. -/
private theorem coe_max (x y : ℝ) : ((max x y : ℝ) : EReal) = max (x : EReal) (y : EReal) :=
  EReal.coe_strictMono.monotone.map_max

/-- The square root is monotone, so it commutes with max; and √(ε·ε) = ε for ε ≥ 0. -/
private theorem sqrt_max_sq (n ε : ℝ) (hε : 0 ≤ ε) :
    Real.sqrt (max n (ε * ε)) = max (Real.sqrt n) ε := by
  have hm : Monotone Real.sqrt := fun _ _ h => Real.sqrt_le_sqrt h
  rw [hm.map_max, Real.sqrt_mul_self hε]

/-- The real-number core: a real factor moves out of a finite sum of reals. -/
private theorem core_real (a b : Fin 512 → ℝ) (Ma Mb : ℝ) :
    (∑ d : Fin 512, b d * (a d * (1 / Ma))) * Mb⁻¹ = ∑ d : Fin 512, a d * (1 / Ma) * (b d * (1 / Mb)) := by
  rw [Finset.sum_mul]
  refine Finset.sum_congr rfl fun d _ => ?_
  ring

/-- On real rows the kernel's similarity is the reference's. -/
theorem simKer_eq_simRef (hf hr : XArr) (hF : Finite hf) (hR : Finite hr) (j : Fin 8192) :
    simKer hf hr j = simRef hf hr j := by
  -- a is the last row of h_f and b is row j of h_r, as real vectors
  have hA : ∀ d : Fin 512, ∃ r : ℝ, hf (ix2 last d) = (r : EReal) := fun d => hF _
  have hB : ∀ d : Fin 512, ∃ r : ℝ, hr (ix2 j d) = (r : EReal) := fun d => hR _
  choose a ha using hA
  choose b hb using hB
  have hε : (0 : ℝ) < 11258999 / 1125899906842624 := by norm_num
  -- the clamped norm max(√(∑ c²), ε) of a real row is a real, and it is positive because ε is
  have clamp : ∀ c : Fin 512 → ℝ,
      max (Ideal.sqrt ((∑ d : Fin 512, c d * c d : ℝ) : EReal)) normEps
        = ((max (Real.sqrt (∑ d : Fin 512, c d * c d)) (11258999 / 1125899906842624) : ℝ) : EReal) := by
    intro c
    have hn : (0 : ℝ) ≤ ∑ d : Fin 512, c d * c d := Finset.sum_nonneg fun d _ => mul_self_nonneg _
    rw [Ideal.sqrt_coe, if_neg (not_lt.mpr hn), normEps_eq, ← coe_max]
  have hpos : ∀ c : Fin 512 → ℝ,
      (max (Real.sqrt (∑ d : Fin 512, c d * c d)) (11258999 / 1125899906842624) : ℝ) ≠ 0 :=
    fun c => (lt_max_of_lt_right hε).ne'
  -- the reciprocal square root of the squared norm clamped at ε² is the reciprocal of the norm clamped at ε
  have hrs : Ideal.rsqrt (max ((∑ d : Fin 512, b d * b d : ℝ) : EReal) normEpsSq)
      = (((max (Real.sqrt (∑ d : Fin 512, b d * b d)) (11258999 / 1125899906842624))⁻¹ : ℝ) : EReal) := by
    have hsq : (0 : ℝ) < (11258999 / 1125899906842624) * (11258999 / 1125899906842624) := mul_pos hε hε
    have hm : (0 : ℝ) < max (∑ d : Fin 512, b d * b d)
        ((11258999 / 1125899906842624) * (11258999 / 1125899906842624)) := lt_max_of_lt_right hsq
    rw [normEpsSq_eq, ← coe_max, Ideal.rsqrt_coe, if_neg (not_lt.mpr hm.le), if_neg hm.ne',
      sqrt_max_sq _ _ hε.le]
  -- both sides are coercions of real expressions, and those agree by distributivity over the finite sum
  simp only [simKer, simRef, unitRow, sqNorm, ha, hb, sqn_coe, clamp, hrs, Ideal.div_coe (hpos _),
    ← EReal.coe_mul, coe_sum]
  rw [core_real]

/-- Block k of a column vector: the sum of its 1024 consecutive entries from 1024·k. -/
def blockSum (f : Fin 8192 → EReal) (k : Fin 8) : EReal :=
  ∑ r : Fin 1024, f ⟨1024 * k.val + r.val, by have := k.isLt; have := r.isLt; omega⟩

/-- A sum over all columns is the sum of its eight blocks. -/
theorem sum_eq_blocks (f : Fin 8192 → EReal) : ∑ j : Fin 8192, f j = ∑ k : Fin 8, blockSum f k := by
  -- the pairs (k, r) ↦ r + 1024·k enumerate the columns once each; sum over the pairs, block by block
  unfold blockSum
  rw [← Equiv.sum_comp (finProdFinEquiv : Fin 8 × Fin 1024 ≃ Fin 8192) f, Fintype.sum_prod_type]
  refine Finset.sum_congr rfl fun k _ => Finset.sum_congr rfl fun r _ => ?_
  congr 1
  apply Fin.ext
  simp [finProdFinEquiv]
  omega

end Cert.Loss

end
-- ==== Proof.KFinalE.lean ====
/-
  The array of exponentials after the run: entry j is  exp s_j  with s_j the kernel's similarity of column j.

  Point t writes back rows 1024·t … 1024·t + 1023, each the body's value of that row of h_r against f̂; the eight
  blocks tile the 8192 rows (row i lies in the block of point i / 1024), so the whole array is one function of the
  argument arrays.
-/
import proofs.«424865_j1357209666311_2_alg».proof.Proof.KInv
import proofs.«424865_j1357209666311_2_alg».proof.Proof.KBlocks
import proofs.«424865_j1357209666311_2_alg».proof.Proof.Algebra

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Inv Cert.KernelIdeal.Pay
open Cert.KernelIdeal.Blocks Cert.Loss

variable (m : (ℓ : Loc nD τ sig) → Buf (Elt Ideal) ℓ)

/-- The kernel's similarity of column j over core c's argument arrays. -/
abbrev simA (c : Dev nD) (j : Fin 8192) : EReal := simKer (hfA m c) (hrA m c) j

/-- A row of a point's block has the exponential of its column's similarity. -/
theorem eRow_eq (c : Dev nD) (t : Fin (cfgM m (hO m)).N) (r : Fin 1024) :
    eRow (xblk m c t) (fblk m c t) r = Ideal.exp (simA m c (rowOf m t r)) := by
  show _ = Ideal.exp (simKer (hfA m c) (hrA m c) (rowOf m t r))
  unfold eRow simKer sqNorm
  simp only [xblk_apply, fblk_apply]

/-- The body's block of exponentials at a row of the block. -/
theorem pay5_block (c : Dev nD) (t : Fin (cfgM m (hO m)).N) (y : S1024x1.Idx) :
    k0_pay5 (F := Ideal) (xblk m c t) (fblk m c t) y = Ideal.exp (simA m c (rowOf m t ⟨(y 0).val, (y 0).isLt⟩)) := by
  have hy : y = ix2 (⟨(y 0).val, (y 0).isLt⟩ : Fin 1024) (0 : Fin 1) := funext fun a => match a with
    | ⟨0, _⟩ => rfl
    | ⟨1, _⟩ => Fin.ext (by have h : (y 1).val < 1 := (y 1).isLt; show (y 1).val = 0; omega)
  rw [hy, pay5_apply, eRow_eq]

/-- The block index of the exponentials' window at point t is the point's own number (core · 4 + step), column block 0. -/
theorem idx3 : ∀ t : Fin grid0.N, cc0_transform_3 (grid0.coords t) (0 : Fin 2) = t.val ∧ cc0_transform_3 (grid0.coords t) (1 : Fin 2) = 0 :=
  (by decide +kernel : ∀ t : Fin grid0.N, cc0_transform_3 (grid0.coords t) (0 : Fin 2) = t.val ∧ cc0_transform_3 (grid0.coords t) (1 : Fin 2) = 0)

/-- The array of exponentials as one function of the argument arrays. -/
def G3 (c : Dev nD) : S8192x1.Idx → EReal := fun i => Ideal.exp (simA m c ⟨(i 0).val, (i 0).isLt⟩)

/-- Row y of point t's block is row 1024·t + y of the array: the block's rows start at the point's number times 1024. -/
theorem row3 (c : Dev nD) (t : Fin (cfgM m (hO m)).N) (y' : S1024x1.Idx) :
    Ideal.exp (simA m c (rowOf m t ⟨(y' 0).val, (y' 0).isLt⟩)) = G3 m c ((((cfgM m (hO m)).win 3).blk t).view.emb y') := by
  unfold G3
  refine congrArg (fun j => Ideal.exp (simA m c j)) (Fin.ext ?_)
  show 1024 * t.val + (y' 0).val = cc0_transform_3 (grid0.coords t) (0 : Fin 2) * 1024 + 1 * (y' 0).val
  rw [(idx3 t).1]; omega

/-- What point t writes back is block t of that function. -/
theorem flushed3_eq (c : Dev nD) (t : Fin (cfgM m (hO m)).N) :
    (dats m (hO m) 0 c).flushed 3 t = (((cfgM m (hO m)).win 3).blk t).view.read (Elt Ideal) (G3 m c) := by
  show ((cfgM m (hO m)).win 3).cut (grid0.coords t) ((dats m (hO m) 0 c).after 3 t) = _
  rw [after0_3, outs3]
  funext y
  exact (pay5_block m c t y).trans (row3 m c t y)

/-- Row i of the array is row i mod 1024 of the block of point i / 1024. -/
theorem emb3 (t : Fin (cfgM m (hO m)).N) (y' : S1024x1.Idx) (i' : S8192x1.Idx)
    (h0 : (i' 0 : Nat) = 1024 * t.val + (y' 0 : Nat)) (h1 : (i' 1 : Nat) = (y' 1 : Nat)) :
    (show S8192x1.Idx from (((cfgM m (hO m)).win 3).blk t).view.emb y') = i' := by
  funext a; apply Fin.ext
  match a with
  | ⟨0, _⟩ =>
    show cc0_transform_3 (grid0.coords t) (0 : Fin 2) * 1024 + 1 * (y' 0 : Nat) = (i' 0 : Nat)
    rw [(idx3 t).1]; omega
  | ⟨1, _⟩ =>
    show cc0_transform_3 (grid0.coords t) (1 : Fin 2) * 1 + 1 * (y' 1 : Nat) = (i' 1 : Nat)
    rw [(idx3 t).2]; omega

/-- The array of exponentials after the run: every row is in the block of the point i / 1024. -/
theorem final3 (c : Dev nD) : (dats m (hO m) 0 c).arrAt 3 (cfgM m (hO m)).N = G3 m c :=
  (dats m (hO m) 0 c).arrAt_eq_of_cover 3 (G3 m c) (fun t _ => flushed3_eq m c t) fun i => by
    have hN : (cfgM m (hO m)).grid.N = 8 := N_0
    have hN' : (cfgM m (hO m)).N = 8 := N_0
    let i' : S8192x1.Idx := i
    have h0 : (i' 0 : Nat) < 8192 := (i' 0).isLt
    have h1 : (i' 1 : Nat) < 1 := (i' 1).isLt
    let t : Fin (cfgM m (hO m)).N := ⟨(i' 0 : Nat) / 1024, by omega⟩
    let y' : S1024x1.Idx := ix2 (⟨(i' 0 : Nat) % 1024, Nat.mod_lt _ (by decide)⟩ : Fin 1024) (0 : Fin 1)
    refine ⟨t, flush0_3 (adm m (hO m)) t, ?_⟩
    have e := emb3 m t y' i' (by show (i' 0 : Nat) = 1024 * ((i' 0 : Nat) / 1024) + (i' 0 : Nat) % 1024; omega) (by show (i' 1 : Nat) = 0; omega)
    have hm := View.emb_mem_set (((cfgM m (hO m)).win 3).blk t).view y'
    rw [show (((cfgM m (hO m)).win 3).blk t).view.emb y' = i from e] at hm
    exact hm

end Cert.KernelIdeal.Final

end
-- ==== Proof.KFinalAcc.lean ====
/-
  The two accumulator arrays after the run, and their totals.

  Each [1, 256] array is written back twice: after point 3 the first core's running sum goes to lanes 0–127, after
  point 7 the second core's to lanes 128–255. A core's running sum is zero plus its four points' partial sums, and
  a point's partial sum is the sum over its 1024 columns of the column's term; so lane 0 plus lane 128 is the sum
  of the term over all 8192 columns: the positives' total P for one array, the count n of negatives for the other.
-/
import proofs.«424865_j1357209666311_2_alg».proof.Proof.KFinalE

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Inv Cert.KernelIdeal.Pay
open Cert.KernelIdeal.Blocks Cert.Loss

variable (m : (ℓ : Loc nD τ sig) → Buf (Elt Ideal) ℓ)

theorem h3 : 3 < (cfgM m (hO m)).N := by rw [show (cfgM m (hO m)).N = 8 from N_0]; decide
theorem h7 : 7 < (cfgM m (hO m)).N := by rw [show (cfgM m (hO m)).N = 8 from N_0]; decide

theorem idx4 : ∀ t : Fin grid0.N, cc0_transform_4 (grid0.coords t) (0 : Fin 2) = 0 ∧ cc0_transform_4 (grid0.coords t) (1 : Fin 2) = t.val / 4 :=
  (by decide +kernel : ∀ t : Fin grid0.N, cc0_transform_4 (grid0.coords t) (0 : Fin 2) = 0 ∧ cc0_transform_4 (grid0.coords t) (1 : Fin 2) = t.val / 4)

/-- The accumulator array as one function: lanes 0–127 the first core's total, lanes 128–255 the second's. -/
def G4 (c : Dev nD) : S1x256.Idx → EReal := fun i => if (i 1).val < 128 then accP m c 3 (h3 m) else accP m c 7 (h7 m)

/-- Lane y of the block of point t (t = 3 or 7) is lane (t / 4) · 128 + y of the array, which holds that core's total. -/
theorem lane4 (c : Dev nD) (t : Fin (cfgM m (hO m)).N) (h37 : t.val = 3 ∨ t.val = 7) (y' : S1x128.Idx) :
    accP m c t.val t.isLt = G4 m c ((((cfgM m (hO m)).win 4).blk t).view.emb y') := by
  have hy : (y' 1 : Nat) < 128 := (y' 1).isLt
  show _ = if cc0_transform_4 (grid0.coords t) (1 : Fin 2) * 128 + 1 * (y' 1 : Nat) < 128 then accP m c 3 (h3 m) else accP m c 7 (h7 m)
  rw [(idx4 t).2]
  rcases h37 with h | h
  · obtain rfl : t = ⟨3, h3 m⟩ := Fin.ext h
    rw [if_pos (by dsimp only; omega)]
  · obtain rfl : t = ⟨7, h7 m⟩ := Fin.ext h
    rw [if_neg (by dsimp only; omega)]

/-- A core's last point writes its total, in every lane, back to the core's own 128 lanes. -/
theorem flushed4_eq (c : Dev nD) (t : Fin (cfgM m (hO m)).N) (hf : ((cfgM m (hO m)).win 4).flush t = true) :
    (dats m (hO m) 0 c).flushed 4 t = (((cfgM m (hO m)).win 4).blk t).view.read (Elt Ideal) (G4 m c) := by
  have hN : (cfgM m (hO m)).N = 8 := N_0
  have ht : t.val % 4 = 3 := (flush0_4 (adm m (hO m)) t).mp hf
  have h37 : t.val = 3 ∨ t.val = 7 := by have := t.isLt; omega
  show ((cfgM m (hO m)).win 4).cut (grid0.coords t) ((dats m (hO m) 0 c).after 4 t) = _
  rw [after0_4, (outs45 m c t.val t.isLt).1]
  funext y
  exact lane4 m c t h37 y

theorem emb4 (t : Fin (cfgM m (hO m)).N) (y' : S1x128.Idx) (i' : S1x256.Idx)
    (h0 : (i' 0 : Nat) = (y' 0 : Nat)) (h1 : (i' 1 : Nat) = t.val / 4 * 128 + (y' 1 : Nat)) :
    (show S1x256.Idx from (((cfgM m (hO m)).win 4).blk t).view.emb y') = i' := by
  funext a; apply Fin.ext
  match a with
  | ⟨0, _⟩ =>
    show cc0_transform_4 (grid0.coords t) (0 : Fin 2) * 1 + 1 * (y' 0 : Nat) = (i' 0 : Nat)
    rw [(idx4 t).1]; omega
  | ⟨1, _⟩ =>
    show cc0_transform_4 (grid0.coords t) (1 : Fin 2) * 128 + 1 * (y' 1 : Nat) = (i' 1 : Nat)
    rw [(idx4 t).2]; omega

/-- The accumulator array after the run: the two flushed blocks tile the 256 lanes. -/
theorem final4 (c : Dev nD) : (dats m (hO m) 0 c).arrAt 4 (cfgM m (hO m)).N = G4 m c :=
  (dats m (hO m) 0 c).arrAt_eq_of_cover 4 (G4 m c) (flushed4_eq m c) fun i => by
    let i' : S1x256.Idx := i
    have h0 : (i' 0 : Nat) < 1 := (i' 0).isLt
    have h1 : (i' 1 : Nat) < 256 := (i' 1).isLt
    by_cases hl : (i' 1 : Nat) < 128
    · let y' : S1x128.Idx := ix2 (0 : Fin 1) (⟨(i' 1 : Nat), hl⟩ : Fin 128)
      refine ⟨⟨3, h3 m⟩, (flush0_4 (adm m (hO m)) _).mpr (by show 3 % 4 = 3; decide), ?_⟩
      have e := emb4 m ⟨3, h3 m⟩ y' i' (by show (i' 0 : Nat) = 0; omega) (by show (i' 1 : Nat) = 3 / 4 * 128 + (i' 1 : Nat); omega)
      have hm := View.emb_mem_set (((cfgM m (hO m)).win 4).blk ⟨3, h3 m⟩).view y'
      rw [show (((cfgM m (hO m)).win 4).blk ⟨3, h3 m⟩).view.emb y' = i from e] at hm
      exact hm
    · let y' : S1x128.Idx := ix2 (0 : Fin 1) (⟨(i' 1 : Nat) - 128, by omega⟩ : Fin 128)
      refine ⟨⟨7, h7 m⟩, (flush0_4 (adm m (hO m)) _).mpr (by show 7 % 4 = 3; decide), ?_⟩
      have e := emb4 m ⟨7, h7 m⟩ y' i' (by show (i' 0 : Nat) = 0; omega) (by show (i' 1 : Nat) = 7 / 4 * 128 + ((i' 1 : Nat) - 128); omega)
      have hm := View.emb_mem_set (((cfgM m (hO m)).win 4).blk ⟨7, h7 m⟩).view y'
      rw [show (((cfgM m (hO m)).win 4).blk ⟨7, h7 m⟩).view.emb y' = i from e] at hm
      exact hm

theorem idx5 : ∀ t : Fin grid0.N, cc0_transform_5 (grid0.coords t) (0 : Fin 2) = 0 ∧ cc0_transform_5 (grid0.coords t) (1 : Fin 2) = t.val / 4 :=
  (by decide +kernel : ∀ t : Fin grid0.N, cc0_transform_5 (grid0.coords t) (0 : Fin 2) = 0 ∧ cc0_transform_5 (grid0.coords t) (1 : Fin 2) = t.val / 4)

/-- The accumulator array as one function: lanes 0–127 the first core's total, lanes 128–255 the second's. -/
def G5 (c : Dev nD) : S1x256.Idx → EReal := fun i => if (i 1).val < 128 then accN m c 3 (h3 m) else accN m c 7 (h7 m)

/-- Lane y of the block of point t (t = 3 or 7) is lane (t / 4) · 128 + y of the array, which holds that core's total. -/
theorem lane5 (c : Dev nD) (t : Fin (cfgM m (hO m)).N) (h37 : t.val = 3 ∨ t.val = 7) (y' : S1x128.Idx) :
    accN m c t.val t.isLt = G5 m c ((((cfgM m (hO m)).win 5).blk t).view.emb y') := by
  have hy : (y' 1 : Nat) < 128 := (y' 1).isLt
  show _ = if cc0_transform_5 (grid0.coords t) (1 : Fin 2) * 128 + 1 * (y' 1 : Nat) < 128 then accN m c 3 (h3 m) else accN m c 7 (h7 m)
  rw [(idx5 t).2]
  rcases h37 with h | h
  · obtain rfl : t = ⟨3, h3 m⟩ := Fin.ext h
    rw [if_pos (by dsimp only; omega)]
  · obtain rfl : t = ⟨7, h7 m⟩ := Fin.ext h
    rw [if_neg (by dsimp only; omega)]

/-- A core's last point writes its total, in every lane, back to the core's own 128 lanes. -/
theorem flushed5_eq (c : Dev nD) (t : Fin (cfgM m (hO m)).N) (hf : ((cfgM m (hO m)).win 5).flush t = true) :
    (dats m (hO m) 0 c).flushed 5 t = (((cfgM m (hO m)).win 5).blk t).view.read (Elt Ideal) (G5 m c) := by
  have hN : (cfgM m (hO m)).N = 8 := N_0
  have ht : t.val % 4 = 3 := (flush0_5 (adm m (hO m)) t).mp hf
  have h37 : t.val = 3 ∨ t.val = 7 := by have := t.isLt; omega
  show ((cfgM m (hO m)).win 5).cut (grid0.coords t) ((dats m (hO m) 0 c).after 5 t) = _
  rw [after0_5, (outs45 m c t.val t.isLt).2]
  funext y
  exact lane5 m c t h37 y

theorem emb5 (t : Fin (cfgM m (hO m)).N) (y' : S1x128.Idx) (i' : S1x256.Idx)
    (h0 : (i' 0 : Nat) = (y' 0 : Nat)) (h1 : (i' 1 : Nat) = t.val / 4 * 128 + (y' 1 : Nat)) :
    (show S1x256.Idx from (((cfgM m (hO m)).win 5).blk t).view.emb y') = i' := by
  funext a; apply Fin.ext
  match a with
  | ⟨0, _⟩ =>
    show cc0_transform_5 (grid0.coords t) (0 : Fin 2) * 1 + 1 * (y' 0 : Nat) = (i' 0 : Nat)
    rw [(idx5 t).1]; omega
  | ⟨1, _⟩ =>
    show cc0_transform_5 (grid0.coords t) (1 : Fin 2) * 128 + 1 * (y' 1 : Nat) = (i' 1 : Nat)
    rw [(idx5 t).2]; omega

/-- The accumulator array after the run: the two flushed blocks tile the 256 lanes. -/
theorem final5 (c : Dev nD) : (dats m (hO m) 0 c).arrAt 5 (cfgM m (hO m)).N = G5 m c :=
  (dats m (hO m) 0 c).arrAt_eq_of_cover 5 (G5 m c) (flushed5_eq m c) fun i => by
    let i' : S1x256.Idx := i
    have h0 : (i' 0 : Nat) < 1 := (i' 0).isLt
    have h1 : (i' 1 : Nat) < 256 := (i' 1).isLt
    by_cases hl : (i' 1 : Nat) < 128
    · let y' : S1x128.Idx := ix2 (0 : Fin 1) (⟨(i' 1 : Nat), hl⟩ : Fin 128)
      refine ⟨⟨3, h3 m⟩, (flush0_5 (adm m (hO m)) _).mpr (by show 3 % 4 = 3; decide), ?_⟩
      have e := emb5 m ⟨3, h3 m⟩ y' i' (by show (i' 0 : Nat) = 0; omega) (by show (i' 1 : Nat) = 3 / 4 * 128 + (i' 1 : Nat); omega)
      have hm := View.emb_mem_set (((cfgM m (hO m)).win 5).blk ⟨3, h3 m⟩).view y'
      rw [show (((cfgM m (hO m)).win 5).blk ⟨3, h3 m⟩).view.emb y' = i from e] at hm
      exact hm
    · let y' : S1x128.Idx := ix2 (0 : Fin 1) (⟨(i' 1 : Nat) - 128, by omega⟩ : Fin 128)
      refine ⟨⟨7, h7 m⟩, (flush0_5 (adm m (hO m)) _).mpr (by show 7 % 4 = 3; decide), ?_⟩
      have e := emb5 m ⟨7, h7 m⟩ y' i' (by show (i' 0 : Nat) = 0; omega) (by show (i' 1 : Nat) = 7 / 4 * 128 + ((i' 1 : Nat) - 128); omega)
      have hm := View.emb_mem_set (((cfgM m (hO m)).win 5).blk ⟨7, h7 m⟩).view y'
      rw [show (((cfgM m (hO m)).win 5).blk ⟨7, h7 m⟩).view.emb y' = i from e] at hm
      exact hm

/-! ## The totals -/

/-- Column j's terms: exp s_j if j is a positive, and 1 if it is a negative. -/
abbrev posTerm (c : Dev nD) (j : Fin 8192) : EReal := if lrA m c (ix1 j) = lfA m c (ix1 last) then Ideal.exp (simA m c j) else 0
abbrev negTerm (c : Dev nD) (j : Fin 8192) : EReal := if lrA m c (ix1 j) = lfA m c (ix1 last) then (0 : EReal) else 1

/-- A point's number as a block number. -/
def blkOf (t : Fin (cfgM m (hO m)).N) : Fin 8 := ⟨t.val, by have h : (cfgM m (hO m)).N = 8 := N_0; have := t.isLt; omega⟩

/-- A point's partial sums are its block's sums of the column terms. -/
theorem partP_eq (c : Dev nD) (t : Fin (cfgM m (hO m)).N) : partP m c t = blockSum (posTerm m c) (blkOf m t) := by
  unfold partP blockSum
  refine Finset.sum_congr rfl fun r _ => ?_
  rw [lblk_apply, lbl_eq, eRow_eq]; rfl
theorem partN_eq (c : Dev nD) (t : Fin (cfgM m (hO m)).N) : partN m c t = blockSum (negTerm m c) (blkOf m t) := by
  unfold partN blockSum
  refine Finset.sum_congr rfl fun r _ => ?_
  rw [lblk_apply, lbl_eq]; rfl

/-- Two cores' chains of four block sums each add up to the sum over all eight blocks. -/
theorem chains_eq_sum (b : Fin 8 → EReal) :
    ((((0 + b 0) + b 1) + b 2) + b 3) + ((((0 + b 4) + b 5) + b 6) + b 7) = ∑ k : Fin 8, b k := by
  rw [Fin.sum_univ_eight]; simp only [zero_add, add_assoc]

/-- Lane 0 plus lane 128 of the positives' array is P. -/
theorem totalP (c : Dev nD) :
    G4 m c (ix2 (0 : Fin 1) (⟨0, by decide⟩ : Fin 256)) + G4 m c (ix2 (0 : Fin 1) (⟨128, by decide⟩ : Fin 256))
      = sumPos (simA m c) (lfA m c) (lrA m c) := by
  have e0 : G4 m c (ix2 (0 : Fin 1) (⟨0, by decide⟩ : Fin 256)) = accP m c 3 (h3 m) := if_pos (by decide)
  have e1 : G4 m c (ix2 (0 : Fin 1) (⟨128, by decide⟩ : Fin 256)) = accP m c 7 (h7 m) := if_neg (by decide)
  have c3 : accP m c 3 (h3 m) = (((0 + partP m c ⟨0, by rw [show (cfgM m (hO m)).N = 8 from N_0]; decide⟩) + partP m c ⟨1, by rw [show (cfgM m (hO m)).N = 8 from N_0]; decide⟩) + partP m c ⟨2, by rw [show (cfgM m (hO m)).N = 8 from N_0]; decide⟩) + partP m c ⟨3, by rw [show (cfgM m (hO m)).N = 8 from N_0]; decide⟩ := rfl
  have c7 : accP m c 7 (h7 m) = (((0 + partP m c ⟨4, by rw [show (cfgM m (hO m)).N = 8 from N_0]; decide⟩) + partP m c ⟨5, by rw [show (cfgM m (hO m)).N = 8 from N_0]; decide⟩) + partP m c ⟨6, by rw [show (cfgM m (hO m)).N = 8 from N_0]; decide⟩) + partP m c ⟨7, by rw [show (cfgM m (hO m)).N = 8 from N_0]; decide⟩ := rfl
  rw [e0, e1, c3, c7]
  simp only [partP_eq]
  exact (chains_eq_sum (blockSum (posTerm m c))).trans (sum_eq_blocks (posTerm m c)).symm

/-- Lane 0 plus lane 128 of the negatives' array is n. -/
theorem totalN (c : Dev nD) :
    G5 m c (ix2 (0 : Fin 1) (⟨0, by decide⟩ : Fin 256)) + G5 m c (ix2 (0 : Fin 1) (⟨128, by decide⟩ : Fin 256))
      = negCount (lfA m c) (lrA m c) := by
  have e0 : G5 m c (ix2 (0 : Fin 1) (⟨0, by decide⟩ : Fin 256)) = accN m c 3 (h3 m) := if_pos (by decide)
  have e1 : G5 m c (ix2 (0 : Fin 1) (⟨128, by decide⟩ : Fin 256)) = accN m c 7 (h7 m) := if_neg (by decide)
  have c3 : accN m c 3 (h3 m) = (((0 + partN m c ⟨0, by rw [show (cfgM m (hO m)).N = 8 from N_0]; decide⟩) + partN m c ⟨1, by rw [show (cfgM m (hO m)).N = 8 from N_0]; decide⟩) + partN m c ⟨2, by rw [show (cfgM m (hO m)).N = 8 from N_0]; decide⟩) + partN m c ⟨3, by rw [show (cfgM m (hO m)).N = 8 from N_0]; decide⟩ := rfl
  have c7 : accN m c 7 (h7 m) = (((0 + partN m c ⟨4, by rw [show (cfgM m (hO m)).N = 8 from N_0]; decide⟩) + partN m c ⟨5, by rw [show (cfgM m (hO m)).N = 8 from N_0]; decide⟩) + partN m c ⟨6, by rw [show (cfgM m (hO m)).N = 8 from N_0]; decide⟩) + partN m c ⟨7, by rw [show (cfgM m (hO m)).N = 8 from N_0]; decide⟩ := rfl
  rw [e0, e1, c3, c7]
  simp only [partN_eq]
  exact (chains_eq_sum (blockSum (negTerm m c))).trans (sum_eq_blocks (negTerm m c)).symm

end Cert.KernelIdeal.Final

end
-- ==== Proof.KTail.lean ====
/-
  The host lines after the call, read: from the three arrays the call returns (the 8192 exponentials e, and the
  two [1, 256] accumulator arrays P and N whose lanes 0 and 128 carry the two cores' totals) and the two label arrays
  they compute  −(∑_{j : labels_r[j] ≠ labels_f[8191]} log (e_j / (P₀ + P₁₂₈) + δ)) / ((N₀ + N₁₂₈) + 1) / B.
-/
import proofs.«424865_j1357209666311_2_alg».proof.Proof.Gen.KernelIdeal.Frame
import proofs.«424865_j1357209666311_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Tail

open Cert.KernelIdeal Cert.KernelIdeal.Gen Cert.Loss

/-- The tail's function of the call's three results and the two label arrays. -/
def tailF (E : (⟨2, ![8192, 1]⟩ : Shape).Idx → EReal) (P N : (⟨2, ![1, 256]⟩ : Shape).Idx → EReal) (lf lr : LArr) : EReal :=
  Ideal.div (Ideal.div
    (-(∑ j : Fin 8192, if lr (ix1 j) = lf (ix1 last) then (0 : EReal)
        else Ideal.log (Ideal.div (E (ix2 j (0 : Fin 1)))
          (P (ix2 (0 : Fin 1) (⟨0, by decide⟩ : Fin 256)) + P (ix2 (0 : Fin 1) (⟨128, by decide⟩ : Fin 256))) + logEps)))
    ((N (ix2 (0 : Fin 1) (⟨0, by decide⟩ : Fin 256)) + N (ix2 (0 : Fin 1) (⟨128, by decide⟩ : Fin 256))) + oneF)) batchF

/-- The [8192, 1] array of exponentials. -/
private abbrev EArr : Type := (⟨2, ![8192, 1]⟩ : Shape).Idx → EReal
/-- A [1, 256] accumulator array. -/
private abbrev AArr : Type := (⟨2, ![1, 256]⟩ : Shape).Idx → EReal

/-- The total of an accumulator array as the host lines take it: its lanes 0 and 128, each sliced out and reshaped
    to a scalar, added. -/
private def lanes (P : AArr) : S_.Idx → EReal :=
  addf (F := Ideal) (s := S_) (φ := .f32)
    (fun i => shapeCast S_ (extractStridedSlice S1x1 ![0, 0] P slices_S1x256_S1x1_0_0) shapeCasts_S1x1_S_ i)
    (fun i => shapeCast S_ (extractStridedSlice S1x1 ![0, 128] P slices_S1x256_S1x1_0_128) shapeCasts_S1x1_S_ i)

/-- The one index of a [1, 1] array sits at the row-major position of the scalar's. -/
private theorem pos11 (i : S_.Idx) : (S1x1.rowMajor (ix2 (0 : Fin 1) (0 : Fin 1))).val = (S_.rowMajor i).val := by
  rw [Shape.rowMajor_val_two]
  exact (Shape.rowMajorPi_zero _ _).symm

private theorem lanes_apply (P : AArr) (i : S_.Idx) :
    lanes P i = P (ix2 (0 : Fin 1) (⟨0, by decide⟩ : Fin 256)) + P (ix2 (0 : Fin 1) (⟨128, by decide⟩ : Fin 256)) := by
  show FloatOps.addf (F := Ideal) (φ := .f32)
      (shapeCast S_ (extractStridedSlice S1x1 ![0, 0] P slices_S1x256_S1x1_0_0) shapeCasts_S1x1_S_ i)
      (shapeCast S_ (extractStridedSlice S1x1 ![0, 128] P slices_S1x256_S1x1_0_128) shapeCasts_S1x1_S_ i) = _
  rw [Ideal.addf_def, shapeCast_apply _ _ i (ix2 (0 : Fin 1) (0 : Fin 1)) (pos11 i),
    shapeCast_apply _ _ i (ix2 (0 : Fin 1) (0 : Fin 1)) (pos11 i),
    extractStridedSlice_apply ![0, 0] P _ _ (ix2 (0 : Fin 1) (⟨0, by decide⟩ : Fin 256))
      (fun a => by match a with | ⟨0, _⟩ => rfl | ⟨1, _⟩ => rfl),
    extractStridedSlice_apply ![0, 128] P _ _ (ix2 (0 : Fin 1) (⟨128, by decide⟩ : Fin 256))
      (fun a => by match a with | ⟨0, _⟩ => rfl | ⟨1, _⟩ => rfl)]

/-- The logarithm stage at every column: log (e_j / total + δ). -/
private def logs (E : EArr) (P : AArr) : S8192.Idx → EReal :=
  Host.log (F := Ideal) (s := S8192) (φ := .f32)
    (addf (F := Ideal) (s := S8192) (φ := .f32)
      (Host.divf (F := Ideal) (s := S8192) (φ := .f32)
        (fun i => shapeCast S8192 E shapeCasts_S8192x1_S8192 i)
        (broadcastInDim S8192 ![] bcast_S_S8192 (lanes P)))
      (broadcastInDim S8192 ![] bcast_S_S8192 (constant (F := Ideal) S_ .f32 0x3089705F#32)))

private theorem logs_apply (E : EArr) (P : AArr) (j : Fin 8192) :
    logs E P (ix1 j) = Ideal.log (Ideal.div (E (ix2 j (0 : Fin 1)))
          (P (ix2 (0 : Fin 1) (⟨0, by decide⟩ : Fin 256)) + P (ix2 (0 : Fin 1) (⟨128, by decide⟩ : Fin 256))) + logEps) := by
  dsimp only [logs, Host.log, addf, Host.divf]
  rw [broadcastInDim_apply _ _ (lanes P) (ix1 j) ValueIdx.ix0 (fun a => a.elim0),
    broadcastInDim_apply _ _ (constant (F := Ideal) S_ .f32 0x3089705F#32) (ix1 j) ValueIdx.ix0 (fun a => a.elim0), lanes_apply,
    shapeCast_apply E _ (ix1 j) (ix2 j (0 : Fin 1)) (by
      rw [Shape.rowMajor_val_two, Shape.rowMajor_val_one]; show j.val * 1 + 0 = j.val; omega)]
  simp only [Ideal.hostUnary_log_def, Ideal.addf_def, Ideal.hostDivf_def]
  rfl

/-- The mask of the negatives: labels_r[j] ≠ labels_f[8191], the latter sliced out, reshaped to a scalar and broadcast. -/
private def negMask (lf lr : LArr) : S8192.Idx → BitVec 1 :=
  cmpi (s := S8192) (w := 32) .ne lr
    (broadcastInDim S8192 ![] bcast_S_S8192
      fun i => shapeCast S_ (extractStridedSlice S1 ![8191] lf slices_S8192_S1_8191) shapeCasts_S1_S_ i)

private theorem negMask_apply (lf lr : LArr) (j : Fin 8192) :
    negMask lf lr (ix1 j) = IntOp.cmpi .ne (lr (ix1 j)) (lf (ix1 last)) := by
  dsimp only [negMask, cmpi]
  rw [broadcastInDim_apply _ _ _ (ix1 j) ValueIdx.ix0 (fun a => a.elim0),
    shapeCast_apply _ _ ValueIdx.ix0 (ix1 (0 : Fin 1)) (by
      rw [Shape.rowMajor_val_one]; exact (Shape.rowMajorPi_zero _ _).symm),
    extractStridedSlice_apply ![8191] lf _ _ (ix1 last) (fun a => by match a with | ⟨0, _⟩ => rfl)]

/-- A selection on a bit that is set exactly when p holds is the conditional on p. -/
private theorem select_of_iff {α : Type} (c : BitVec 1) (a b : α) (p : Prop) [Decidable p] (h : c = 1#1 ↔ p) :
    Scalar.select c a b = if p then a else b := by
  unfold Scalar.select
  by_cases hp : p
  · rw [if_pos hp]; exact if_pos (h.2 hp)
  · rw [if_neg hp]; exact if_neg (fun hc => hp (h.1 hc))

/-- The masked logarithms: zero at the positives. -/
private def masked (E : EArr) (P : AArr) (lf lr : LArr) : S8192.Idx → EReal :=
  select (negMask lf lr) (logs E P)
    (broadcastInDim S8192 ![] bcast_S_S8192 (constant (F := Ideal) S_ .f32 0x00000000#32))

private theorem masked_apply (E : EArr) (P : AArr) (lf lr : LArr) (j : Fin 8192) :
    masked E P lf lr (ix1 j) = if lr (ix1 j) = lf (ix1 last) then (0 : EReal) else Ideal.log (Ideal.div (E (ix2 j (0 : Fin 1)))
          (P (ix2 (0 : Fin 1) (⟨0, by decide⟩ : Fin 256)) + P (ix2 (0 : Fin 1) (⟨128, by decide⟩ : Fin 256))) + logEps) := by
  dsimp only [masked, select]
  rw [negMask_apply, logs_apply,
    broadcastInDim_apply _ _ (constant (F := Ideal) S_ .f32 0x00000000#32) (ix1 j) ValueIdx.ix0 (fun a => a.elim0)]
  show Scalar.select _ _ (Ideal.ofBits .f32 0x00000000#32) = _
  rw [Ideal.ofBits_zero_f32, select_of_iff _ _ _ (¬ lr (ix1 j) = lf (ix1 last)) IntOp.cmpi_ne, ite_not]

/-- A rank-1 index set is its one coordinate's range. -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

/-- The sum of the masked logarithms over all columns. -/
private def total (E : EArr) (P : AArr) (lf lr : LArr) : S_.Idx → EReal :=
  Host.reduceAdd (F := Ideal) (s := S8192) (φ := .f32) (masked E P lf lr)
    (constant (F := Ideal) S_ .f32 0x00000000#32) reducesTo_S8192_S_d0 h_S_

private theorem total_apply (E : EArr) (P : AArr) (lf lr : LArr) (i : S_.Idx) :
    total E P lf lr i = ∑ j : Fin 8192, if lr (ix1 j) = lf (ix1 last) then (0 : EReal) else Ideal.log (Ideal.div (E (ix2 j (0 : Fin 1)))
          (P (ix2 (0 : Fin 1) (⟨0, by decide⟩ : Fin 256)) + P (ix2 (0 : Fin 1) (⟨128, by decide⟩ : Fin 256))) + logEps) := by
  unfold total
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add, sum_idx1]
  exact Finset.sum_congr rfl fun k _ => masked_apply E P lf lr k

/-- The whole tail as the composition of its operations. -/
private def raw (E : EArr) (P N : AArr) (lf lr : LArr) : S_.Idx → EReal :=
  Host.divf (F := Ideal) (s := S_) (φ := .f32)
    (Host.divf (F := Ideal) (s := S_) (φ := .f32)
      (Host.negf (F := Ideal) (s := S_) (φ := .f32) (total E P lf lr))
      (addf (F := Ideal) (s := S_) (φ := .f32) (lanes N) (constant (F := Ideal) S_ .f32 0x3F800000#32)))
    (constant (F := Ideal) S_ .f32 0x46000000#32)

private theorem raw_eq (E : EArr) (P N : AArr) (lf lr : LArr) :
    raw E P N lf lr = fun _ => tailF E P N lf lr := by
  funext i
  dsimp only [raw, Host.divf, Host.negf, addf]
  rw [total_apply, lanes_apply]
  simp only [Ideal.hostDivf_def, Ideal.hostNegf_def, Ideal.negf_def, Ideal.addf_def]
  rfl

/-- From any contents W of the buffers at the region's exit, the lines after the region leave the result at tailF
    of the call's three result arrays and the two label arguments. -/
theorem tail_value (W : Valuation τ sig (Elt Ideal)) :
    StableHlo.after (List.flatten [hostOps1, hostOps1_1, hostOps1_2]) W (Proc.devRef .tc main_v37)
      = fun _ => tailF (W (Proc.devRef .tc main_v11_0)) (W (Proc.devRef .tc main_v11_1)) (W (Proc.devRef .tc main_v11_2))
          (W (Proc.devRef .tc main_arg1)) (W (Proc.devRef .tc main_arg3)) := by
  simp only [hostOps1, hostOps1_1, hostOps1_2, List.flatten_cons, List.flatten_nil, List.append_nil, List.cons_append,
    List.nil_append]
  after_results_simp
  exact raw_eq (W (Proc.devRef .tc main_v11_0)) (W (Proc.devRef .tc main_v11_1)) (W (Proc.devRef .tc main_v11_2))
    (W (Proc.devRef .tc main_arg1)) (W (Proc.devRef .tc main_arg3))

end Cert.KernelIdeal.Tail

end
-- ==== Proof.KRun.lean ====
/-
  The idealized kernel's run, read: its result is the loss at the kernel's similarity, and its arguments end unchanged.

  The call leaves the exponentials and the two accumulator arrays; the host lines after it add lanes 0 and 128 of each
  accumulator (the two cores' totals, hence P and n) and finish the logarithms, the masked sum and the two divisions.
-/
import proofs.«424865_j1357209666311_2_alg».proof.Proof.KFinalAcc
import proofs.«424865_j1357209666311_2_alg».proof.Proof.KTail

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Pieces Cert.KernelIdeal.Inv Cert.KernelIdeal.Pay
open Cert.KernelIdeal.Blocks Cert.KernelIdeal.Final Cert.KernelIdeal.Tail Cert.Loss

variable (m : (ℓ : Loc nD τ sig) → Buf (Elt Ideal) ℓ) (ρ : Dev nD → PrngReg)

/-- The tail's function of the three final arrays is the loss at the kernel's similarity. -/
theorem tailF_final (c : Dev nD) :
    tailF (G3 m c) (G4 m c) (G5 m c) (lfA m c) (lrA m c) = lossWith (simA m c) (lfA m c) (lrA m c) := by
  have hE : ∀ j : Fin 8192, G3 m c (ix2 j (0 : Fin 1)) = Ideal.exp (simA m c j) := fun j => rfl
  unfold tailF lossWith
  simp only [hE]
  rw [totalP, totalN]

/-- The buffers' contents at the region's exit: the call's arrays at what the run leaves, the rest as entered. -/
abbrev exitW (c : Dev nD) : Valuation τ sig (Elt Ideal) :=
  Pipeline.withArrays (Pipeline.pin pcfgs (fun _ => adm m (hO m)) 0).spec c (V0 m c)
    fun w => (dats m (hO m) 0 c).arrAt w (Pipeline.pin pcfgs (fun _ => adm m (hO m)) 0).N

theorem exit_v11_0 (c : Dev nD) : exitW m c (Proc.devRef .tc main_v11_0) = G3 m c :=
  (Pipeline.withArrays_arr spec0 (launch0 (F := Ideal)).win.arr_inj c _ _ 3).trans (final3 m c)
theorem exit_v11_1 (c : Dev nD) : exitW m c (Proc.devRef .tc main_v11_1) = G4 m c :=
  (Pipeline.withArrays_arr spec0 (launch0 (F := Ideal)).win.arr_inj c _ _ 4).trans (final4 m c)
theorem exit_v11_2 (c : Dev nD) : exitW m c (Proc.devRef .tc main_v11_2) = G5 m c :=
  (Pipeline.withArrays_arr spec0 (launch0 (F := Ideal)).win.arr_inj c _ _ 5).trans (final5 m c)
theorem exit_arg1 (c : Dev nD) : exitW m c (Proc.devRef .tc main_arg1) = lfA m c :=
  (Pipeline.withArrays_of_ne _ c (V0 m c) _ main_arg1 (by exact (by decide : ∀ w, Pipeline.arrRef spec0 w ≠ main_arg1))).trans (V_main_arg1 m c)
theorem exit_arg3 (c : Dev nD) : exitW m c (Proc.devRef .tc main_arg3) = lrA m c :=
  (Pipeline.withArrays_of_ne _ c (V0 m c) _ main_arg3 (by exact (by decide : ∀ w, Pipeline.arrRef spec0 w ≠ main_arg3))).trans (V_main_arg3 m c)

/-- The result buffer after the lines that follow the call. -/
theorem result_eq (c : Dev nD) :
    Pipeline.afterTail pcfgs (fun _ => adm m (hO m)) (dats m (hO m)) 0 (V0 m) [hostOps1, hostOps1_1, hostOps1_2] c main_v37
      = fun _ => lossWith (simA m c) (lfA m c) (lrA m c) := by
  unfold Pipeline.afterTail
  refine (tail_value (exitW m c)).trans ?_
  funext _
  rw [exit_v11_0, exit_v11_1, exit_v11_2, exit_arg1, exit_arg3]
  exact tailF_final m c

/-- Every weakly fair execution of the idealized kernel's program ends with the result at the loss and the arguments unchanged. -/
theorem run : θ_run defs (onTc (τ := τ) (main (F := Ideal))) ⟨m, fun _ => 0, ρ⟩ fun r => ∀ c : Dev nD,
      r.2.mem ((c.tc : Thread nD τ).loc main_v37) = (fun _ => lossWith (simA m c) (lfA m c) (lrA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v37 (by decide : main_v37 ∈ Pipeline.restRefs sig spec0)).trans (result_eq m c),
      ((h c).2 main_arg0 (by decide : main_arg0 ∈ Pipeline.restRefs sig spec0)).trans (W_main_arg0 m (hO m) (dats m (hO m)) c),
      ((h c).2 main_arg1 (by decide : main_arg1 ∈ Pipeline.restRefs sig spec0)).trans (W_main_arg1 m (hO m) (dats m (hO m)) c),
      ((h c).1 0).trans (((dats m (hO m) 0 c).arrAt_in 0 rfl _).trans ((A_eq m (hO m) c 0).trans (V_main_arg2 m c))),
      ((h c).2 main_arg3 (by decide : main_arg3 ∈ Pipeline.restRefs sig spec0)).trans (W_main_arg3 m (hO m) (dats m (hO m)) c)⟩)
    (run_main m ρ (hO m))

end Cert.KernelIdeal.Run

end
-- ==== Proof.RefRead.lean ====
/-
  The reference's result, read at its one index through the stages of its run: the loss of the last row of the
  pairwise cosine-similarity matrix, as a function of the four argument arrays.

  The reference builds the whole [8192, 8192] matrix and every row's loss, then slices row 8191. Read at that row,
  each stage is the specification's term: the two normalisations are unitRow, the contraction is simRef, the masks
  compare labels_f[8191] with labels_r[j], the two row sums are sumPos and the sum of the negatives' logarithms, and
  the integer count of negatives, a sum of 8192 words each 0 or 1 that cannot wrap, converts to negCount.
-/
import proofs.«424865_j1357209666311_2_alg».proof.Proof.Gen.ReferenceIdeal.Read
import proofs.«424865_j1357209666311_2_alg».proof.Proof.Spec
import Idealize.ShloMosaic.Lib.StableHlo.Predicate

noncomputable section

namespace Cert.RefLoss

open Cert.Loss Idealize.ShloMosaic Idealize.ShloMosaic.ValueIdx
open Cert.ReferenceIdeal Cert.ReferenceIdeal.Read

/-- The squared norm of row j of the first array. -/
private theorem sq_f (x : XArr) (j : Fin 8192) : val_main_v1 (F := Ideal) x (ix1 j) = sqNorm x j := by
  rw [val_main_v1_apply, val_main_cst_apply, Ideal.ofBits_def, Ideal.ofBits_zero_f32, zero_add]
  unfold sqNorm
  refine Finset.sum_congr rfl fun d _ => ?_
  have e : idx_main_v1 (ix1 j) d = ix2 j d :=
    funext fun a => Fin.ext (by match a with | ⟨0, _⟩ => rfl | ⟨1, _⟩ => rfl)
  rw [val_main_v0_apply, Ideal.mulf_def, e]

/-- The squared norm of row j of the second array. -/
private theorem sq_r (x : XArr) (j : Fin 8192) : val_main_v9 (F := Ideal) x (ix1 j) = sqNorm x j := by
  rw [val_main_v9_apply, val_main_cst_1_apply, Ideal.ofBits_def, Ideal.ofBits_zero_f32, zero_add]
  unfold sqNorm
  refine Finset.sum_congr rfl fun d _ => ?_
  have e : idx_main_v9 (ix1 j) d = ix2 j d :=
    funext fun a => Fin.ext (by match a with | ⟨0, _⟩ => rfl | ⟨1, _⟩ => rfl)
  rw [val_main_v8_apply, Ideal.mulf_def, e]

/-- The first array's normalised row. -/
private theorem unit_f (x : XArr) (j : Fin 8192) (d : Fin 512) :
    val_main_v7 (F := Ideal) x (ix2 j d) = unitRow x j d := by
  have e : idx_main_v2 (idx_main_v6 (ix2 j d)) = ix1 j :=
    funext fun a => Fin.ext (by match a with | ⟨0, _⟩ => rfl)
  rw [val_main_v7_apply, val_main_v6_apply, val_main_v5_apply, val_main_v3_apply, val_main_v2_apply,
    val_main_v4_apply, val_main_cst_0_apply, e, sq_f]
  simp only [Ideal.hostDivf_def, Ideal.maximumf_def, Ideal.hostUnary_sqrt_def, Ideal.ofBits_def]
  rfl

/-- The second array's normalised row. -/
private theorem unit_r (x : XArr) (j : Fin 8192) (d : Fin 512) :
    val_main_v15 (F := Ideal) x (ix2 j d) = unitRow x j d := by
  have e : idx_main_v10 (idx_main_v14 (ix2 j d)) = ix1 j :=
    funext fun a => Fin.ext (by match a with | ⟨0, _⟩ => rfl)
  rw [val_main_v15_apply, val_main_v14_apply, val_main_v13_apply, val_main_v11_apply, val_main_v10_apply,
    val_main_v12_apply, val_main_cst_2_apply, e, sq_r]
  simp only [Ideal.hostDivf_def, Ideal.maximumf_def, Ideal.hostUnary_sqrt_def, Ideal.ofBits_def]
  rfl

/-- The similarity matrix at (i, j): the contraction of the two normalised rows. -/
private theorem sim_at (x0 x2 : XArr) (i j : Fin 8192) :
    val_main_v17 (F := Ideal) x0 x2 (ix2 i j) = ∑ d : Fin 512, unitRow x0 i d * unitRow x2 j d := by
  rw [val_main_v17_apply]
  refine Finset.sum_congr rfl fun d _ => ?_
  have el : lidx_main_v17 (ix2 i j) d = ix2 i d :=
    funext fun a => Fin.ext (by match a with | ⟨0, _⟩ => rfl | ⟨1, _⟩ => rfl)
  have er : idx_main_v16 (ridx_main_v17 (ix2 i j) d) = ix2 j d :=
    funext fun a => Fin.ext (by match a with | ⟨0, _⟩ => rfl | ⟨1, _⟩ => rfl)
  rw [val_main_v16_apply, el, er, unit_f, unit_r]

/-- The last row of the similarity matrix is the specification's reference similarity. -/
private theorem sim_last (x0 x2 : XArr) (j : Fin 8192) :
    val_main_v17 (F := Ideal) x0 x2 (ix2 last j) = simRef x0 x2 j := sim_at x0 x2 last j

/-- The label comparison at (i, j): the two broadcasts read labels_f[i] and labels_r[j]. -/
private theorem mask_at (x1 x3 : LArr) (i j : Fin 8192) :
    val_main_v22 (F := Ideal) x1 x3 (ix2 i j) = IntOp.cmpi .eq (x1 (ix1 i)) (x3 (ix1 j)) := by
  have e1 : idx_main_v18 (idx_main_v20 (ix2 i j)) = ix1 i :=
    funext fun a => Fin.ext (by match a with | ⟨0, _⟩ => rfl)
  have e3 : idx_main_v19 (idx_main_v21 (ix2 i j)) = ix1 j :=
    funext fun a => Fin.ext (by match a with | ⟨0, _⟩ => rfl)
  rw [val_main_v22_apply, val_main_v20_apply, val_main_v18_apply, val_main_v21_apply, val_main_v19_apply, e1, e3]

/-- Column j is a positive of row i exactly when the labels agree. -/
private theorem mask_pos (x1 x3 : LArr) (i j : Fin 8192) :
    val_main_v22 (F := Ideal) x1 x3 (ix2 i j) = 1#1 ↔ x3 (ix1 j) = x1 (ix1 i) := by
  rw [mask_at, StableHlo.Predicate.cmpi_eq_iff, eq_comm]

/-- A flipped bit is set exactly when the bit is not. -/
private theorem not_bit_iff (c : BitVec 1) : ~~~c = 1#1 ↔ ¬ c = 1#1 := by
  rcases BitVec.eq_zero_or_eq_one c with rfl | rfl <;> decide

/-- Column j is a negative of row i exactly when the labels differ. -/
private theorem mask_neg (x1 x3 : LArr) (i j : Fin 8192) :
    val_main_v23 (F := Ideal) x1 x3 (ix2 i j) = 1#1 ↔ ¬ x3 (ix1 j) = x1 (ix1 i) := by
  rw [val_main_v23_apply]
  exact (not_bit_iff _).trans (not_congr (mask_pos x1 x3 i j))

/-- A selection on a bit that is set exactly when p holds is the conditional on p. -/
private theorem select_of_iff {α : Type} (c : BitVec 1) (a b : α) (p : Prop) [Decidable p] (h : c = 1#1 ↔ p) :
    Scalar.select c a b = if p then a else b := by
  unfold Scalar.select
  by_cases hp : p
  · rw [if_pos hp]; exact if_pos (h.2 hp)
  · rw [if_neg hp]; exact if_neg (fun hc => hp (h.1 hc))

/-- The masked exponential of the last row. -/
private theorem pos_at (x0 x2 : XArr) (x1 x3 : LArr) (j : Fin 8192) :
    val_main_v25 (F := Ideal) x0 x1 x2 x3 (ix2 last j)
      = if x3 (ix1 j) = x1 (ix1 last) then Ideal.exp (simRef x0 x2 j) else 0 := by
  rw [val_main_v25_apply, val_main_v24_apply, sim_last, val_main_call0_v1_apply, val_main_call0_v0_apply,
    val_main_cst_3_apply, Ideal.hostUnary_exp_def, Ideal.ofBits_def, Ideal.ofBits_zero_f32]
  exact select_of_iff _ _ _ _ (mask_pos x1 x3 last j)

/-- The positive sum of the last row. -/
private theorem sumPos_at (x0 x2 : XArr) (x1 x3 : LArr) :
    val_main_v26 (F := Ideal) x0 x1 x2 x3 (ix1 last) = sumPos (simRef x0 x2) x1 x3 := by
  rw [val_main_v26_apply, val_main_cst_4_apply, Ideal.ofBits_def, Ideal.ofBits_zero_f32, zero_add]
  unfold sumPos
  refine Finset.sum_congr rfl fun k _ => ?_
  have e : idx_main_v26 (ix1 last) k = ix2 last k :=
    funext fun a => Fin.ext (by match a with | ⟨0, _⟩ => rfl | ⟨1, _⟩ => rfl)
  rw [e, pos_at]

/-- The logarithm stage of the last row. -/
private theorem log_at (x0 x2 : XArr) (x1 x3 : LArr) (j : Fin 8192) :
    val_main_v32 (F := Ideal) x0 x1 x2 x3 (ix2 last j)
      = Ideal.log (Ideal.div (Ideal.exp (simRef x0 x2 j)) (sumPos (simRef x0 x2) x1 x3) + logEps) := by
  have e : idx_main_v27 (idx_main_v28 (ix2 last j)) = ix1 last :=
    funext fun a => Fin.ext (by match a with | ⟨0, _⟩ => rfl)
  rw [val_main_v32_apply, val_main_v31_apply, val_main_v29_apply, val_main_v24_apply, sim_last, val_main_v28_apply,
    val_main_v27_apply, e, sumPos_at, val_main_v30_apply, val_main_cst_5_apply]
  simp only [Ideal.hostUnary_log_def, Ideal.addf_def, Ideal.hostDivf_def, Ideal.hostUnary_exp_def, Ideal.ofBits_def]
  rfl

/-- The masked logarithm of the last row. -/
private theorem neg_at (x0 x2 : XArr) (x1 x3 : LArr) (j : Fin 8192) :
    val_main_v36 (F := Ideal) x0 x1 x2 x3 (ix2 last j)
      = if x3 (ix1 j) = x1 (ix1 last) then (0 : EReal)
        else Ideal.log (Ideal.div (Ideal.exp (simRef x0 x2 j)) (sumPos (simRef x0 x2) x1 x3) + logEps) := by
  rw [val_main_v36_apply, log_at, val_main_call1_v1_apply, val_main_call1_v0_apply,
    val_main_cst_6_apply, Ideal.ofBits_def, Ideal.ofBits_zero_f32,
    select_of_iff _ _ _ (¬ x3 (ix1 j) = x1 (ix1 last)) (mask_neg x1 x3 last j), ite_not]

/-- The sum of the negatives' logarithms in the last row. -/
private theorem sumNeg_at (x0 x2 : XArr) (x1 x3 : LArr) :
    val_main_v37 (F := Ideal) x0 x1 x2 x3 (ix1 last)
      = ∑ j : Fin 8192, if x3 (ix1 j) = x1 (ix1 last) then (0 : EReal)
        else Ideal.log (Ideal.div (Ideal.exp (simRef x0 x2 j)) (sumPos (simRef x0 x2) x1 x3) + logEps) := by
  rw [val_main_v37_apply, val_main_cst_7_apply, Ideal.ofBits_def, Ideal.ofBits_zero_f32, zero_add]
  refine Finset.sum_congr rfl fun k _ => ?_
  have e : idx_main_v37 (ix1 last) k = ix2 last k :=
    funext fun a => Fin.ext (by match a with | ⟨0, _⟩ => rfl | ⟨1, _⟩ => rfl)
  rw [e, neg_at]

/-- The number of elements of a finite set with a property, as an extended real, is the sum of the indicator. -/
private theorem card_filter_cast {ι : Type} (s : Finset ι) (p : ι → Prop) [DecidablePred p] :
    (((s.filter p).card : ℝ) : EReal) = ∑ a ∈ s, if p a then (1 : EReal) else 0 := by
  classical
  induction s using Finset.induction_on with
  | empty => simp
  | insert a s ha ih =>
    rw [Finset.sum_insert ha, ← ih, Finset.filter_insert]
    by_cases hp : p a
    · rw [if_pos hp, if_pos hp, Finset.card_insert_of_notMem (fun h => ha (Finset.mem_filter.1 h).1),
        Nat.cast_add, Nat.cast_one, EReal.coe_add, EReal.coe_one, add_comm]
    · rw [if_neg hp, if_neg hp, zero_add]

/-- The integer count of the negatives of the last row: a sum of 8192 words each 0 or 1, which does not wrap. -/
private theorem count_toNat (x1 x3 : LArr) :
    (val_main_v34 (F := Ideal) x1 x3 (ix1 last)).toNat
      = (Finset.univ.filter (fun q : Fin 8192 => ¬ x3 (ix1 q) = x1 (ix1 last))).card := by
  unfold val_main_v34 val_main_v33 val_main_c
  rw [StableHlo.Predicate.toNat_reduce_count_cols (by norm_num)]
  refine congrArg Finset.card (Finset.filter_congr fun q _ => ?_)
  refine Iff.trans (iff_of_eq (congrArg (fun z => val_main_v23 (F := Ideal) x1 x3 z = 1#1) ?_)) (mask_neg x1 x3 last q)
  exact funext fun a => by match a with | ⟨0, _⟩ => rfl | ⟨1, _⟩ => rfl

/-- The count of negatives, converted to a float, is the specification's count. -/
private theorem count_at (x1 x3 : LArr) :
    val_main_v35 (F := Ideal) x1 x3 (ix1 last) = negCount x1 x3 := by
  rw [val_main_v35_apply]
  show (((val_main_v34 (F := Ideal) x1 x3 (ix1 last)).toInt : ℝ) : EReal) = _
  have hlt : (val_main_v34 (F := Ideal) x1 x3 (ix1 last)).toNat < 2 ^ 31 := by
    rw [count_toNat]
    exact lt_of_le_of_lt (Finset.card_le_univ _) (by rw [Fintype.card_fin]; norm_num)
  rw [StableHlo.Predicate.toInt_eq_toNat_of_lt hlt, count_toNat, Int.cast_natCast, card_filter_cast]
  unfold negCount
  refine Finset.sum_congr rfl fun j _ => ?_
  rw [ite_not]

/-- The rank-0 reshape of the one-element slice reads the last row. -/
private theorem scalar_at (x0 x2 : XArr) (x1 x3 : LArr) (i : S_.Idx) :
    val_main_v43 (F := Ideal) x0 x1 x2 x3 i = val_main_v41 (F := Ideal) x0 x1 x2 x3 (ix1 last) := by
  unfold val_main_v43
  rw [shapeCast_apply _ _ i (ix1 (0 : Fin 1)) (by
    rw [Shape.rowMajor_val_one]; exact (Shape.rowMajorPi_zero _ _).symm), val_main_v42_apply]
  have e : idx_main_v42 (ix1 (0 : Fin 1)) = ix1 last :=
    funext fun a => Fin.ext (by match a with | ⟨0, _⟩ => rfl)
  rw [e]

/-- The reference's last stage is the specification's loss at the reference's similarity. -/
theorem ref_value (x0 : XArr) (x1 : LArr) (x2 : XArr) (x3 : LArr) :
    Cert.ReferenceIdeal.Read.val_main_v44 (F := Ideal) x0 x1 x2 x3 = fun _ => lossWith (simRef x0 x2) x1 x3 := by
  funext i
  rw [val_main_v44_apply, scalar_at, val_main_cst_9_apply, val_main_v41_apply, val_main_v38_apply, sumNeg_at,
    val_main_v40_apply, count_at, val_main_v39_apply, val_main_cst_8_apply]
  simp only [Ideal.hostDivf_def, Ideal.hostNegf_def, Ideal.negf_def, Ideal.addf_def, Ideal.ofBits_def]
  rfl

end Cert.RefLoss

end
-- ==== Proof.Finite.lean ====
/-
  The precondition, read: when the printed all-finite test of the two float arrays answers 1, every entry of both
  arrays is a real number (|x| < +∞ on the extended reals rules out both infinities).
-/
import proofs.«424865_j1357209666311_2_alg».proof.Pre_finite_inputs
import proofs.«424865_j1357209666311_2_alg».proof.Proof.Algebra
import Idealize.ShloMosaic.Lib.ReduceAll

noncomputable section

namespace Cert.Loss

open Idealize.ShloMosaic Idealize.ShloMosaic.ValueIdx

/-- An extended real whose absolute value `max x (-x)` lies strictly below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The single-precision pattern 0x7F800000 denotes +∞. -/
private theorem ofBits_inf : Ideal.ofBits .f32 0x7F800000#32 = (⊤ : EReal) := by
  simp [Ideal.ofBits, Ideal.ieee]

/-- One entry's test `|x| < +∞` answering 1 makes the entry a real number. -/
private theorem real_of_test (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  rw [Ideal.ofBits_def, ofBits_inf] at h
  by_contra hn
  have : FloatOps.cmpf (F := Ideal) .olt (FloatOps.hostAbsf x) (⊤ : EReal) = 0#1 := by
    show Ideal.cmp .olt (max x (-x)) ⊤ = 0#1
    simp [Ideal.cmp, hn]
  rw [this] at h
  exact absurd h (by decide)

/-- If the precondition's test is 1 then both float arrays hold only real numbers. -/
theorem finite_of_fn [Cert.Pre_finite_inputs.Facts] (x0 : XArr) (x1 : LArr) (x2 : XArr) (x3 : LArr)
    (h : Cert.Pre_finite_inputs.fn (F := Ideal) x0 x1 x2 x3 = fun _ => 1#1) : Finite x0 ∧ Finite x2 := by
  have h0 := congrFun h ValueIdx.ix0
  dsimp only [Cert.Pre_finite_inputs.fn] at h0
  haveI : Subsingleton Cert.Pre_finite_inputs.S_.Idx := ⟨fun a b => funext fun d => d.elim0⟩
  obtain ⟨ha, hb⟩ := IntOp.andi_eq_one.1 h0
  refine ⟨fun i => ?_, fun i => ?_⟩
  · exact real_of_test (x0 i) (Host.reduce_andi_all _ _ _ _ _ ha i)
  · exact real_of_test (x2 i) (Host.reduce_andi_all _ _ _ _ _ hb i)

end Cert.Loss

end
-- ==== Proof.lean ====
/-
  The certificate: a contrastive loss computed from one streaming pass over h_r equals its dense reference.

  The reference forms the whole 8192 × 8192 matrix of cosine similarities between the rows of h_f and h_r, turns every
  row into a loss, and returns the LAST row's loss divided by the batch size. The kernel computes only that row: it
  normalises the last row of h_f on the host, streams h_r in eight blocks of 1024 rows over two cores, emits exp of
  each row's similarity, accumulates the positives' sum and the negatives' count per core, and finishes on the host.

  At the exact extended reals both programs are one function of the similarity vector (Proof/Spec.lean, lossWith): the
  kernel's run ends there at the kernel's spelling of the similarity (Proof/KRun.lean), the reference's at its own
  (Proof/RefRead.lean), and for finite inputs the two spellings agree, a real factor moved out of a finite sum and
  √(max(n, ε²)) = max(√n, ε) (Proof/Algebra.lean; finiteness from the precondition, Proof/Finite.lean). The kernel's
  clamp constant is named ε², the exact square of the reference's ε: the one entry of the idealization's ledger.
-/
import proofs.«424865_j1357209666311_2_alg».proof.Defs
import proofs.«424865_j1357209666311_2_alg».proof.Proof.Gen.Kernel
import proofs.«424865_j1357209666311_2_alg».proof.Proof.Gen.Kernel.Frame
import proofs.«424865_j1357209666311_2_alg».proof.Proof.Gen.KernelIdeal
import proofs.«424865_j1357209666311_2_alg».proof.Proof.Gen.KernelIdeal.Frame
import proofs.«424865_j1357209666311_2_alg».proof.Proof.Gen.ReferenceIdeal
import proofs.«424865_j1357209666311_2_alg».proof.Proof.Gen.ReferenceIdeal.Run
import proofs.«424865_j1357209666311_2_alg».proof.Proof.Gen.ReferenceIdeal.Read
import proofs.«424865_j1357209666311_2_alg».proof.Proof.Gen.Pre_finite_inputs
import proofs.«424865_j1357209666311_2_alg».proof.Proof.KRun
import proofs.«424865_j1357209666311_2_alg».proof.Proof.RefRead
import proofs.«424865_j1357209666311_2_alg».proof.Proof.Finite
import Idealize.ShloMosaic.Adequacy
import Idealize.ShloMosaic.Init

noncomputable section

namespace Cert.Proof

open Idealize.ShloMosaic Idealize.SL.Sem Cert.Loss

/-- The word-level kernel runs and keeps its arguments: no index map reads the prefetched table. -/
theorem frame_k : Cert.frame_Kernel := fun m ρ _ => Cert.Kernel.Gen.frame m ρ trivial
/-- So does the idealized kernel. -/
theorem frame_ki : Cert.frame_KernelIdeal := fun m ρ _ => Cert.KernelIdeal.Gen.frame m ρ trivial
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the clamp of the squared norm is named ε², and the printed constant is that value over the extended reals. -/
theorem preserves : Cert.preserves_Kernel_KernelIdeal :=
  IdealRules.named_const.statement Cert.KernelIdeal.κ "cos_eps_sq" .f32 0x24E69595#32 ((126765058482001 / 1267650600228229401496703205376 : ℝ) : EReal) rfl

/-- From memories agreeing on the four arguments, both idealized programs end at the loss of the kernel's similarity:
    the reference's own similarity is the same vector, because the precondition makes every float entry a real. -/
theorem algebraic : Cert.algebraic_KernelIdeal_ReferenceIdeal := by
  intro m ρ m' ρ' hpre hagree
  refine ⟨fun c => fun _ => lossWith (simKer (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v44_eq, Cert.RefLoss.ref_value, (hagree c).1, (hagree c).2.1, (hagree c).2.2.1, (hagree c).2.2.2]
  obtain ⟨hF, hR⟩ := finite_of_fn _ _ _ _ (hpre c)
  exact congrArg (fun s => fun _ => lossWith s _ _) (funext fun j => (simKer_eq_simRef _ _ hF hR j).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
